-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg0 : IVec S1600000 32) (main_arg9 : FVec F S128 .f32) (main_arg10 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S1600000 32 := broadcastInDim S1600000 ![] bcast_S_S1600000 main_c_16
  let main_v45 : IVec S1600000 1 := cmpi .sge main_arg0 main_v44
  let main_c_17 : IVec S_ 32 := constantI S_ 32 100000#32
  let main_v46 : IVec S1600000 32 := broadcastInDim S1600000 ![] bcast_S_S1600000 main_c_17
  let main_v47 : IVec S1600000 1 := cmpi .slt main_arg0 main_v46
  let main_v48 : IVec S1600000 1 := andi main_v45 main_v47
  let main_c_18 : IVec S_ 1 := constantI S_ 1 1#1
  let main_v49 : IVec S_ 1 := (fun x v => Host.reduce IntOp.andi x v reducesTo_S1600000_S_d0 h_S_) main_v48 main_c_18
  let main_v50 : IVec S_ 1 := andi main_v43 main_v49
  main_v50

def fn_part1 {F : FTy → Type} [FloatOps F] (main_arg0 : IVec S1600000 32) (main_arg6 : FVec F S128 .f32) (main_arg7 : FVec F S128 .f32) (main_arg8 : FVec F S128 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg9 main_arg10 main_v33

def fn {F : FTy → Type} [FloatOps F] (main_arg0 : IVec S1600000 32) (main_arg1 : IVec S1600000 32) (main_arg2 : FVec F S100000x128 .f32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg6 main_arg7 main_arg8 main_arg9 main_arg10 main_v13 main_v16
-- ==== Kernel.lean ====
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S2000x128 : Shape := ⟨2, ![2000, 128]⟩
abbrev S2000x1 : Shape := ⟨2, ![2000, 1]⟩
abbrev S1 : Shape := ⟨1, ![1]⟩
abbrev S1x1 : Shape := ⟨2, ![1, 1]⟩
abbrev S1600000x128 : Shape := ⟨2, ![1600000, 128]⟩
abbrev S2000 : Shape := ⟨1, ![2000]⟩

abbrev nBuf : Space → Nat
  | .hbm => 126
  | .vmem => 52
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000, .f32⟩
  | .hbm, ⟨30, _⟩ => ⟨S100000x1, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S128x128, .bf16⟩
  | .hbm, ⟨38, _⟩ => ⟨S128x128, .bf16⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1, .i32⟩
  | .hbm, ⟨49, _⟩ => ⟨S_, .i32⟩
  | .hbm, ⟨50, _⟩ => ⟨S1600000x1, .i32⟩
  | .hbm, ⟨51, _⟩ => ⟨S1600000x1, .i1⟩
  | .hbm, ⟨52, _⟩ => ⟨S1x1, .i32⟩
  | .hbm, ⟨53, _⟩ => ⟨S1600000x1, .i32⟩
  | .hbm, ⟨54, _⟩ => ⟨S1600000x1, .i1⟩
  | .hbm, ⟨55, _⟩ => ⟨S1600000x1, .i1⟩
  | .hbm, ⟨56, _⟩ => ⟨S_, .i1⟩
  | .hbm, ⟨57, _⟩ => ⟨S1600000, .i1⟩
  | .hbm, ⟨58, _⟩ => ⟨S1600000x128, .f32⟩
  | .hbm, ⟨59, _⟩ => ⟨S1600000x128, .i1⟩
  | .hbm, ⟨60, _⟩ => ⟨S_, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1, .i32⟩
  | .hbm, ⟨78, _⟩ => ⟨S_, .i32⟩
  | .hbm, ⟨79, _⟩ => ⟨S1600000x1, .i32⟩
  | .hbm, ⟨80, _⟩ => ⟨S1600000x1, .i1⟩
  | .hbm, ⟨81, _⟩ => ⟨S1x1, .i32⟩
  | .hbm, ⟨82, _⟩ => ⟨S1600000x1, .i32⟩
  | .hbm, ⟨83, _⟩ => ⟨S1600000x1, .i1⟩
  | .hbm, ⟨84, _⟩ => ⟨S1600000x1, .i1⟩
  | .hbm, ⟨85, _⟩ => ⟨S_, .i1⟩
  | .hbm, ⟨86, _⟩ => ⟨S1600000, .i1⟩
  | .hbm, ⟨87, _⟩ => ⟨S1600000x128, .f32⟩
  | .hbm, ⟨88, _⟩ => ⟨S1600000x128, .i1⟩
  | .hbm, ⟨89, _⟩ => ⟨S_, .f32⟩
  | .hbm, ⟨90, _⟩ => ⟨S1600000x128, .f32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S_, .i32⟩
  | .hbm, ⟨99, _⟩ => ⟨S1600000, .i32⟩
  | .hbm, ⟨100, _⟩ => ⟨S1600000, .i1⟩
  | .hbm, ⟨101, _⟩ => ⟨S_, .i32⟩
  | .hbm, ⟨102, _⟩ => ⟨S1600000, .i32⟩
  | .hbm, ⟨103, _⟩ => ⟨S1600000, .i32⟩
  | .hbm, ⟨104, _⟩ => ⟨S1600000, .i32⟩
  | .hbm, ⟨105, _⟩ => ⟨S1600000x1, .i32⟩
  | .hbm, ⟨106, _⟩ => ⟨S1, .i32⟩
  | .hbm, ⟨107, _⟩ => ⟨S_, .i32⟩
  | .hbm, ⟨108, _⟩ => ⟨S1600000x1, .i32⟩
  | .hbm, ⟨109, _⟩ => ⟨S1600000x1, .i1⟩
  | .hbm, ⟨110, _⟩ => ⟨S1x1, .i32⟩
  | .hbm, ⟨111, _⟩ => ⟨S1600000x1, .i32⟩
  | .hbm, ⟨112, _⟩ => ⟨S1600000x1, .i1⟩
  | .hbm, ⟨113, _⟩ => ⟨S1600000x1, .i1⟩
  | .hbm, ⟨114, _⟩ => ⟨S_, .i1⟩
  | .hbm, ⟨115, _⟩ => ⟨S1600000, .i1⟩
  | .hbm, ⟨116, _⟩ => ⟨S1600000x128, .f32⟩
  | .hbm, ⟨117, _⟩ => ⟨S1600000x128, .i1⟩
  | .hbm, ⟨118, _⟩ => ⟨S_, .f32⟩
  | .hbm, ⟨119, _⟩ => ⟨S1600000x128, .f32⟩
  | .hbm, ⟨120, _⟩ => ⟨S1600000x128, .f32⟩
  | .hbm, ⟨121, _⟩ => ⟨S_, .f32⟩
  | .hbm, ⟨122, _⟩ => ⟨S100000x128, .f32⟩
  | .hbm, ⟨123, _⟩ => ⟨S1600000x1, .i32⟩
  | .hbm, ⟨124, _⟩ => ⟨S100000x128, .f32⟩
  | .hbm, ⟨125, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .bf16⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S1x128, .f32⟩
  | .local _ .vmem, ⟨20, _⟩ => ⟨S2000x1, .f32⟩
  | .local _ .vmem, ⟨21, _⟩ => ⟨S2000x1, .f32⟩
  | .local _ .vmem, ⟨22, _⟩ => ⟨S128x128, .bf16⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x1, .f32⟩
  | .local _ .vmem, ⟨28, _⟩ => ⟨S2000x1, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S1x128, .f32⟩
  | .local _ .vmem, ⟨37, _⟩ => ⟨S1x128, .f32⟩
  | .local _ .vmem, ⟨38, _⟩ => ⟨S2000x1, .f32⟩
  | .local _ .vmem, ⟨39, _⟩ => ⟨S2000x1, .f32⟩
  | .local _ .vmem, ⟨40, _⟩ => ⟨S128x128, .bf16⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x1, .f32⟩
  | .local _ .vmem, ⟨46, _⟩ => ⟨S2000x1, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_c : Ref sig .tc := ⟨.hbm, 40, rfl⟩
abbrev main_call0_v0 : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_c_1 : Ref sig .tc := ⟨.hbm, 48, rfl⟩
abbrev main_call0_c_2 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_3 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_call0_cst : Ref sig .tc := ⟨.hbm, 60, rfl⟩
abbrev main_call0_v15 : Ref sig .tc := ⟨.hbm, 61, rfl⟩
abbrev main_v24 : Ref sig .tc := ⟨.hbm, 62, rfl⟩
abbrev main_cst_4 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_cst : Ref sig .tc := ⟨.hbm, 89, rfl⟩
abbrev main_call1_v15 : Ref sig .tc := ⟨.hbm, 90, rfl⟩
abbrev main_v30 : Ref sig .tc := ⟨.hbm, 91, rfl⟩
abbrev main_cst_5 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_call2_c : Ref sig .tc := ⟨.hbm, 98, rfl⟩
abbrev main_call2_v0 : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c_1 : Ref sig .tc := ⟨.hbm, 106, rfl⟩
abbrev main_call2_c_2 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_3 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_cst : Ref sig .tc := ⟨.hbm, 118, rfl⟩
abbrev main_call2_v15 : Ref sig .tc := ⟨.hbm, 119, rfl⟩
abbrev main_v36 : Ref sig .tc := ⟨.hbm, 120, rfl⟩
abbrev main_cst_6 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc5_stg4_0 : Ref sig .tc := ⟨.vmem, 50, rfl⟩
abbrev cc5_stg4_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem3_0 : DmaSem sig := 48
abbrev cc5_sem3_1 : DmaSem sig := 49
abbrev cc5_sem4_0 : DmaSem sig := 50
abbrev cc5_sem4_1 : DmaSem sig := 51

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .f32 = 32 ∨ (Rect.block (s := S100000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S100000x1.size a
  hwx4_3 : ∀ i : grid4.Coords, EltTy.bits .f32 = 32 ∨ (Rect.block (s := S100000x1) S2000x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S100000x128.size a
  hwx4_5 : ∀ i : grid4.Coords, EltTy.bits .f32 = 32 ∨ (Rect.block (s := S100000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S100000x128.size a
  hwx5_4 : ∀ i : grid5.Coords, EltTy.bits .f32 = 32 ∨ (Rect.block (s := S100000x128) S2000x128.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg2) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v22) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v33) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg2) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v34) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v34) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v20) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v12) S2000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v22) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v35) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v39) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v16) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg2) S2000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v40) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 210
  | .vmem => 0
  | .smem => 0
  | _ => 0

abbrev hbmTy0_0 (i : Nat) : BufTy := match i % 128 with
  | 0 => ⟨S1600000, .i32⟩
  | 1 => ⟨S1600000, .i32⟩
  | 2 => ⟨S100000x128, .f32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S100000x1, .f32⟩
  | 29 => ⟨S100000x128, .f32⟩
  | 30 => ⟨S100000x128, .f32⟩
  | 31 => ⟨S100000x128, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S100000, .f32⟩
  | 46 => ⟨S100000x1, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S100000x128, .f32⟩
  | 56 => ⟨S_, .f32⟩
  | 57 => ⟨S100000, .f32⟩
  | 58 => ⟨S100000x1, .f32⟩
  | 59 => ⟨S_, .f32⟩
  | 60 => ⟨S100000x1, .f32⟩
  | 61 => ⟨S100000x1, .f32⟩
  | 62 => ⟨S100000x128, .f32⟩
  | 63 => ⟨S100000x128, .f32⟩
  | 64 => ⟨S100000x128, .f32⟩
  | 65 => ⟨S_, .f32⟩
  | 66 => ⟨S100000, .f32⟩
  | 67 => ⟨S100000x1, .f32⟩
  | 68 => ⟨S_, .f32⟩
  | 69 => ⟨S100000x1, .f32⟩
  | 70 => ⟨S100000x1, .f32⟩
  | 71 => ⟨S100000x128, .f32⟩
  | 72 => ⟨S100000x128, .f32⟩
  | 73 => ⟨S_, .f32⟩
  | 74 => ⟨S100000x1, .f32⟩
  | 75 => ⟨S100000x1, .f32⟩
  | 76 => ⟨S100000x1, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S_, .f32⟩
  | 89 => ⟨S1600000, .f32⟩
  | 90 => ⟨S_, .f32⟩
  | 91 => ⟨S100000, .f32⟩
  | 92 => ⟨S1600000x1, .i32⟩
  | 93 => ⟨S100000, .f32⟩
  | 94 => ⟨S_, .f32⟩
  | 95 => ⟨S100000, .f32⟩
  | 96 => ⟨S100000, .f32⟩
  | 97 => ⟨S_, .f32⟩
  | 98 => ⟨S100000, .f32⟩
  | 99 => ⟨S1600000x1, .i32⟩
  | 100 => ⟨S100000, .f32⟩
  | 101 => ⟨S_, .f32⟩
  | 102 => ⟨S100000, .f32⟩
  | 103 => ⟨S100000, .f32⟩
  | 104 => ⟨S100000, .f32⟩
  | 105 => ⟨S100000x1, .f32⟩
  | 106 => ⟨S100000x128, .f32⟩
  | 107 => ⟨S100000x128, .f32⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S100000, .f32⟩
  | 123 => ⟨S100000x1, .f32⟩
  | 124 => ⟨S100000x128, .f32⟩
  | 125 => ⟨S100000x128, .f32⟩
  | 126 => ⟨S1x128, .f32⟩
  | 127 => ⟨S100000x128, .f32⟩
  | _ => ⟨S1600000, .i32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x128, .f32⟩
  | 5 => ⟨S_, .f32⟩
  | 6 => ⟨S100000, .f32⟩
  | 7 => ⟨S100000x1, .f32⟩
  | 8 => ⟨S_, .f32⟩
  | 9 => ⟨S100000x1, .f32⟩
  | 10 => ⟨S100000x1, .f32⟩
  | 11 => ⟨S100000x128, .f32⟩
  | 12 => ⟨S100000x128, .f32⟩
  | 13 => ⟨S100000x128, .f32⟩
  | 14 => ⟨S_, .f32⟩
  | 15 => ⟨S100000, .f32⟩
  | 16 => ⟨S100000x1, .f32⟩
  | 17 => ⟨S_, .f32⟩
  | 18 => ⟨S100000x1, .f32⟩
  | 19 => ⟨S100000x1, .f32⟩
  | 20 => ⟨S100000x128, .f32⟩
  | 21 => ⟨S100000x128, .f32⟩
  | 22 => ⟨S_, .f32⟩
  | 23 => ⟨S100000x1, .f32⟩
  | 24 => ⟨S100000x1, .f32⟩
  | 25 => ⟨S100000x1, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S_, .f32⟩
  | 38 => ⟨S1600000, .f32⟩
  | 39 => ⟨S_, .f32⟩
  | 40 => ⟨S100000, .f32⟩
  | 41 => ⟨S1600000x1, .i32⟩
  | 42 => ⟨S100000, .f32⟩
  | 43 => ⟨S_, .f32⟩
  | 44 => ⟨S100000, .f32⟩
  | 45 => ⟨S100000, .f32⟩
  | 46 => ⟨S_, .f32⟩
  | 47 => ⟨S100000, .f32⟩
  | 48 => ⟨S1600000x1, .i32⟩
  | 49 => ⟨S100000, .f32⟩
  | 50 => ⟨S_, .f32⟩
  | 51 => ⟨S100000, .f32⟩
  | 52 => ⟨S100000, .f32⟩
  | 53 => ⟨S100000, .f32⟩
  | 54 => ⟨S100000x1, .f32⟩
  | 55 => ⟨S100000x128, .f32⟩
  | 56 => ⟨S100000x128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000, .f32⟩
  | 72 => ⟨S100000x1, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | _ => ⟨S1600000, .i32⟩

abbrev hbmTy (i : Nat) : BufTy := match i / 128 with
  | 0 => hbmTy0_0 i
  | 1 => hbmTy0_1 i
  | _ => ⟨S1600000, .i32⟩

abbrev bufTy : (tb : Table) → Fin (tcTables nBuf tb) → BufTy
  | .hbm, ⟨i, _⟩ => hbmTy i
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call0_cst : Ref sig .tc := ⟨.hbm, 85, rfl⟩
abbrev main_call0_v0 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_16 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_c_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_19 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_21 : Ref sig .tc := ⟨.hbm, 133, rfl⟩
abbrev main_v97 : Ref sig .tc := ⟨.hbm, 134, rfl⟩
abbrev main_v98 : Ref sig .tc := ⟨.hbm, 135, rfl⟩
abbrev main_cst_22 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_23 : Ref sig .tc := ⟨.hbm, 142, rfl⟩
abbrev main_v104 : Ref sig .tc := ⟨.hbm, 143, rfl⟩
abbrev main_v105 : Ref sig .tc := ⟨.hbm, 144, rfl⟩
abbrev main_cst_24 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_25 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_call1_cst : Ref sig .tc := ⟨.hbm, 162, rfl⟩
abbrev main_call1_v0 : Ref sig .tc := ⟨.hbm, 163, rfl⟩
abbrev main_v121 : Ref sig .tc := ⟨.hbm, 164, rfl⟩
abbrev main_cst_26 : Ref sig .tc := ⟨.hbm, 165, rfl⟩
abbrev main_v122 : Ref sig .tc := ⟨.hbm, 166, rfl⟩
abbrev main_cst_27 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_28 : Ref sig .tc := ⟨.hbm, 171, rfl⟩
abbrev main_v126 : Ref sig .tc := ⟨.hbm, 172, rfl⟩
abbrev main_v127 : Ref sig .tc := ⟨.hbm, 173, rfl⟩
abbrev main_cst_29 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_30 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_c_31 : Ref sig .tc := ⟨.hbm, 186, rfl⟩
abbrev main_v138 : Ref sig .tc := ⟨.hbm, 187, rfl⟩
abbrev main_v139 : Ref sig .tc := ⟨.hbm, 188, rfl⟩
abbrev main_c_32 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_33 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_34 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The graph convolution network as plain mathematics over the extended reals.

  A feature matrix has R rows of 128 entries. Three row-wise maps make up the network, each reading row r of its
  matrix operands and nothing of the other rows:
    * scaleMM  x c W      : row r of x, scaled by the column entry c r, times the 128 × 128 matrix W;
    * post     a c b x    : a r q · c r + b q + (1/5 as a binary32 number) · x r q;
    * lnMM     h g l c W  : layer normalisation of row r of h (mean and variance over its 128 entries, the variance
                            shifted by the binary32 number nearest 1e-5 before the inverse square root), scaled by g,
                            shifted by l, clipped below at zero, scaled by c r, times W.
  The network is three convolutions: the first on the input features, the second and third each after a layer
  normalisation, every convolution followed by an edge aggregation (a parameter here: any map of matrices) and by post.
  Because the maps are row-wise, a block of rows of a result is the same map of the blocks of rows of the operands
  (the lemmas *_rows below): that is what lets a kernel work through the rows tile by tile.
-/
import Idealize.ShloMosaic.PureOps.Ideal
import Idealize.ShloMosaic.Lib.ValueIdx

open scoped BigOperators

noncomputable section

namespace Cert.Spec

open Idealize.ShloMosaic Idealize.ShloMosaic.ValueIdx

/-- R rows of 128 extended reals. -/
abbrev Mat (R : ℕ) : Type := (⟨2, ![R, 128]⟩ : Shape).Idx → EReal
/-- A column of R extended reals, kept as an R × 1 array. -/
abbrev Col (R : ℕ) : Type := (⟨2, ![R, 1]⟩ : Shape).Idx → EReal
/-- A row of 128 extended reals, kept as a 1 × 128 array. -/
abbrev Row : Type := (⟨2, ![1, 128]⟩ : Shape).Idx → EReal
/-- A 128 × 128 weight matrix. -/
abbrev Wt : Type := (⟨2, ![128, 128]⟩ : Shape).Idx → EReal

/-- The residual coefficient: the binary32 number nearest 1/5. -/
abbrev cRes : EReal := Ideal.ofBits .f32 0x3E4CCCCD#32
/-- 128 as a binary32 number. -/
abbrev c128 : EReal := Ideal.ofBits .f32 0x43000000#32
/-- The variance shift: the binary32 number nearest 1e-5. -/
abbrev cEps : EReal := Ideal.ofBits .f32 0x3727C5AC#32
/-- Zero as a binary32 number. -/
abbrev cZero : EReal := Ideal.ofBits .f32 0x00000000#32

variable {R : ℕ}

/-- Entry (r, q) of (row r of x, scaled by c r) · W. -/
def scaleMMAt (x : Mat R) (c : Col R) (w : Wt) (r : Fin R) (q : Fin 128) : EReal :=
  ∑ k : Fin 128, (x (ix2 r k) * c (ix2 r (0 : Fin 1))) * w (ix2 k q)

/-- (x scaled row by row by c) · W. -/
def scaleMM (x : Mat R) (c : Col R) (w : Wt) : Mat R := fun i => scaleMMAt x c w (i 0) (i 1)

/-- Entry (r, q) of the aggregated features scaled by c r, plus the bias, plus the residual. -/
def postAt (a : Mat R) (c : Col R) (b : Row) (x : Mat R) (r : Fin R) (q : Fin 128) : EReal :=
  (a (ix2 r q) * c (ix2 r (0 : Fin 1)) + b (ix2 (0 : Fin 1) q)) + cRes * x (ix2 r q)

/-- a scaled row by row by c, plus the bias row, plus the residual. -/
def post (a : Mat R) (c : Col R) (b : Row) (x : Mat R) : Mat R := fun i => postAt a c b x (i 0) (i 1)

/-- The mean of row r. -/
def rowMean (h : Mat R) (r : Fin R) : EReal := Ideal.div (∑ k : Fin 128, h (ix2 r k)) c128

/-- The mean of the squared deviations of row r from its mean. -/
def rowVar (h : Mat R) (r : Fin R) : EReal :=
  Ideal.div (∑ k : Fin 128, (h (ix2 r k) - rowMean h r) * (h (ix2 r k) - rowMean h r)) c128

/-- Entry (r, k) of the normalised, scaled, shifted and clipped features. -/
def lnReluAt (h : Mat R) (g l : Row) (r : Fin R) (k : Fin 128) : EReal :=
  max ((((h (ix2 r k) - rowMean h r) * Ideal.rsqrt (rowVar h r + cEps)) * g (ix2 (0 : Fin 1) k)) + l (ix2 (0 : Fin 1) k)) cZero

/-- Entry (r, q) of (the normalised and clipped row r of h, scaled by c r) · W. -/
def lnMMAt (h : Mat R) (g l : Row) (c : Col R) (w : Wt) (r : Fin R) (q : Fin 128) : EReal :=
  ∑ k : Fin 128, (lnReluAt h g l r k * c (ix2 r (0 : Fin 1))) * w (ix2 k q)

/-- (the normalised and clipped h, scaled row by row by c) · W. -/
def lnMM (h : Mat R) (g l : Row) (c : Col R) (w : Wt) : Mat R := fun i => lnMMAt h g l c w (i 0) (i 1)

/-- The network: three convolutions, the last two after a layer normalisation; agg is the edge aggregation. -/
def gcn (agg : Mat R → Mat R) (co ci : Col R) (x : Mat R) (w1 : Wt) (b1 : Row) (w2 : Wt) (b2 g1 l1 g2 l2 : Row) : Mat R :=
  post (agg (lnMM (post (agg (lnMM (post (agg (scaleMM x co w1)) ci b1 x) g1 l1 co w2)) ci b2 x) g2 l2 co w2)) ci b2 x

/-! ## Rows in, rows out -/

/-- Rows picked from a matrix. -/
def pickM {R' : ℕ} (f : Fin R' → Fin R) (x : Mat R) : Mat R' := fun j => x (ix2 (f (j 0)) (j 1))
/-- The same rows picked from a column. -/
def pickC {R' : ℕ} (f : Fin R' → Fin R) (c : Col R) : Col R' := fun j => c (ix2 (f (j 0)) (j 1))

variable {R' : ℕ} (f : Fin R' → Fin R)

theorem scaleMM_rows (x : Mat R) (c : Col R) (w : Wt) :
    pickM f (scaleMM x c w) = scaleMM (pickM f x) (pickC f c) w := rfl

theorem post_rows (a : Mat R) (c : Col R) (b : Row) (x : Mat R) :
    pickM f (post a c b x) = post (pickM f a) (pickC f c) b (pickM f x) := rfl

theorem lnMM_rows (h : Mat R) (g l : Row) (c : Col R) (w : Wt) :
    pickM f (lnMM h g l c w) = lnMM (pickM f h) g l (pickC f c) w := rfl

end Cert.Spec

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.LibRowsCols.lean ====
/-
  Rows and columns of a rank-2 vector read at an index, at any extents.

  A vector of `a` entries viewed as an `a × 1` column reads its entry at every `(i, 0)`; a column spread across `b`
  lanes reads, at `(i, j)`, the column's entry `i`. A sum over the lane axis of an `a × b` vector, at row `i`, is the
  sum of that row's entries; over the sublane axis, at lane `j`, the sum of that lane's column. A maximum over the lane
  axis, at row `i`, is the maximum of the row's entries taken from the accumulator's value, in any order.
-/
import Idealize.ShloMosaic.PureOps.Ideal.Laws
import Idealize.ShloMosaic.Lib.Pipeline.Value
import Idealize.ShloMosaic.Lib.ValueIdx

noncomputable section

namespace Idealize.ShloMosaic.RowsCols

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

variable {φ : FTy}

/-- The sum over the lanes of an `[a, b]` vector, at row `i`: the sum of the row. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  show ∑ k : Fin b, src (h.lift (ix1 i) k) = _
  refine Finset.sum_congr rfl fun k _ => congrArg src (funext fun c => Fin.ext ?_)
  match c with
  | ⟨0, _⟩ => rfl
  | ⟨1, _⟩ => rfl

/-- The sum over the sublanes of an `[a, b]` vector, at lane `j`: the sum of the column. -/
theorem sublaneSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  show ∑ k : Fin a, src (h.lift (ix1 j) k) = _
  refine Finset.sum_congr rfl fun k _ => congrArg src (funext fun c => Fin.ext ?_)
  match c with
  | ⟨0, _⟩ => rfl
  | ⟨1, _⟩ => rfl

/-- The maximum over the lanes of an `[a, b]` vector, at row `i`: the maximum of the row, from the accumulator's value. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  show (Finset.univ : Finset (Fin b)).fold max (Ideal.ofBits φ acc) (src ∘ h.lift (ix1 i)) = _
  refine congrArg (fun g => (Finset.univ : Finset (Fin b)).fold max (Ideal.ofBits φ acc) g)
    (funext fun k => congrArg src (funext fun c => Fin.ext ?_))
  match c with
  | ⟨0, _⟩ => rfl
  | ⟨1, _⟩ => rfl

end Idealize.ShloMosaic.RowsCols

end
-- ==== Proof.KI.Pay.lean ====
/-
  What each kernel body stores, as a function of the blocks it loads: the three row-wise maps of the specification
  at 2000 rows. A body's matrix product into a zero accumulator is the sum over the contracted coordinate; its lane
  sums are sums of a row's entries; a column block spread over the lanes reads the column's entry; a change of float
  format is the identity over the extended reals.
-/
import proofs.«417709_j60155311947854_1_alg».proof.Proof.Gen.KernelIdeal.Skeleton
import proofs.«417709_j60155311947854_1_alg».proof.Proof.Spec
import proofs.«417709_j60155311947854_1_alg».proof.Proof.LibDot
import proofs.«417709_j60155311947854_1_alg».proof.Proof.LibRowsCols

noncomputable section

namespace Cert.KernelIdeal.Pay

open Cert.KernelIdeal Cert.KernelIdeal.Gen Idealize.ShloMosaic Idealize.ShloMosaic.ValueIdx

open Idealize.ShloMosaic.RowsCols Cert.Lib.Dot

/-- A `[1, b]` row broadcast to `[a, b]` reads, at `(i, j)`, the row at `(0, j)`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The lane sums of a matrix, cast to a column and divided entrywise by a splat scalar, read at row `p`:
    the sum of row `p` divided by the scalar. -/
theorem rowStat_apply (v : FVec Ideal S2000x128 .f32) (c : Ideal .f32) (p : Fin 2000) (u : Fin 1) :
    divf (shapeCast S2000x1 (multiReduction .add [1] S2000 v 0x00000000#32 reduces_S2000x128_S2000 (.inl rfl) rfl)
        shapeCasts_S2000_S2000x1) (broadcast S2000x1 c) (ix2 p u)
      = Ideal.div (∑ k : Fin 128, v (ix2 p k)) c := by
  show Ideal.div (shapeCast S2000x1 _ shapeCasts_S2000_S2000x1 (ix2 p u)) c = _
  rw [shapeCast_a_a1_apply]
  exact congrArg (fun s => Ideal.div s c) (laneSum_apply v _ _ _ _ p)

/-- The mean column reads, at row `p`, the mean of row `p`. -/
theorem mean_read (h : FVec Ideal S2000x128 .f32) (p : Fin 2000) (u : Fin 1) :
    divf (shapeCast S2000x1 (multiReduction .add [1] S2000 h 0x00000000#32 reduces_S2000x128_S2000 (.inl rfl) rfl)
        shapeCasts_S2000_S2000x1) (broadcast S2000x1 (Scalar.ofBits .f32 0x43000000#32 : Ideal .f32)) (ix2 p u)
      = Cert.Spec.rowMean h p :=
  rowStat_apply h _ p u

/-- The matrix less its mean column spread over the lanes reads, at `(p, k)`, the deviation of the entry from
    the mean of its row. -/
theorem dev_read (h : FVec Ideal S2000x128 .f32) (m : FVec Ideal S2000x1 .f32)
    (hm : ∀ (p : Fin 2000) (u : Fin 1), m (ix2 p u) = Cert.Spec.rowMean h p) (p : Fin 2000) (k : Fin 128) :
    subf h (broadcastTo S2000x128 m broadcasts_S2000x1_S2000x128) (ix2 p k)
      = h (ix2 p k) - Cert.Spec.rowMean h p := by
  show h (ix2 p k) - broadcastTo S2000x128 m broadcasts_S2000x1_S2000x128 (ix2 p k) = _
  rw [broadcastTo_a1_ab_apply, hm]

/-- The lane sums of the squared deviations over 128 read, at row `p`, the variance of row `p`. -/
theorem var_read (h d : FVec Ideal S2000x128 .f32)
    (hd : ∀ (p : Fin 2000) (k : Fin 128), d (ix2 p k) = h (ix2 p k) - Cert.Spec.rowMean h p)
    (p : Fin 2000) (u : Fin 1) :
    divf (shapeCast S2000x1 (multiReduction .add [1] S2000 (mulf d d) 0x00000000#32 reduces_S2000x128_S2000 (.inl rfl) rfl)
        shapeCasts_S2000_S2000x1) (broadcast S2000x1 (Scalar.ofBits .f32 0x43000000#32 : Ideal .f32)) (ix2 p u)
      = Cert.Spec.rowVar h p := by
  refine (rowStat_apply (mulf d d) _ p u).trans ?_
  have e : ∑ k : Fin 128, (mulf d d) (ix2 p k)
      = ∑ k : Fin 128, (h (ix2 p k) - Cert.Spec.rowMean h p) * (h (ix2 p k) - Cert.Spec.rowMean h p) :=
    Finset.sum_congr rfl fun k _ => by
      show d (ix2 p k) * d (ix2 p k) = _
      rw [hd]
  rw [e]
  rfl

/-- The inverse square root of the shifted variance column reads, at row `p`, that of the variance of row `p`. -/
theorem istd_read (h : FVec Ideal S2000x128 .f32) (v : FVec Ideal S2000x1 .f32)
    (hv : ∀ (p : Fin 2000) (u : Fin 1), v (ix2 p u) = Cert.Spec.rowVar h p) (p : Fin 2000) (u : Fin 1) :
    rsqrt (addf v (broadcast S2000x1 (Scalar.ofBits .f32 0x3727C5AC#32 : Ideal .f32))) (ix2 p u)
      = Ideal.rsqrt (Cert.Spec.rowVar h p + Cert.Spec.cEps) := by
  show Ideal.rsqrt (v (ix2 p u) + Cert.Spec.cEps) = _
  rw [hv]

/-- The deviations scaled by the inverse standard deviation, by the gain row, shifted by the bias row and clipped
    below at zero read, at `(p, k)`, the normalised and clipped entry of the specification. -/
theorem lnRelu_read (h d : FVec Ideal S2000x128 .f32) (s : FVec Ideal S2000x1 .f32)
    (hd : ∀ (p : Fin 2000) (k : Fin 128), d (ix2 p k) = h (ix2 p k) - Cert.Spec.rowMean h p)
    (hs : ∀ (p : Fin 2000) (u : Fin 1), s (ix2 p u) = Ideal.rsqrt (Cert.Spec.rowVar h p + Cert.Spec.cEps))
    (g l : FVec Ideal S1x128 .f32) (p : Fin 2000) (k : Fin 128) :
    maximumf (addf (mulf (mulf d (broadcastTo S2000x128 s broadcasts_S2000x1_S2000x128))
        (broadcastTo S2000x128 g broadcasts_S1x128_S2000x128)) (broadcastTo S2000x128 l broadcasts_S1x128_S2000x128))
        (broadcast S2000x128 (Scalar.ofBits .f32 0x00000000#32 : Ideal .f32)) (ix2 p k)
      = Cert.Spec.lnReluAt h g l p k := by
  show max (d (ix2 p k) * broadcastTo S2000x128 s broadcasts_S2000x1_S2000x128 (ix2 p k)
      * broadcastTo S2000x128 g broadcasts_S1x128_S2000x128 (ix2 p k)
      + broadcastTo S2000x128 l broadcasts_S1x128_S2000x128 (ix2 p k)) Cert.Spec.cZero = _
  rw [broadcastTo_a1_ab_apply, broadcastTo_1b_ab_apply, broadcastTo_1b_ab_apply, hd, hs]
  rfl

theorem pay0 (x0 : Vec Ideal S2000x128 .f32) (x1 : Vec Ideal S2000x1 .f32) (x2 : Vec Ideal S128x128 .bf16) :
    k0_pay1 (F := Ideal) x0 x1 x2 = Cert.Spec.scaleMM x0 x1 x2 := by
  funext j
  obtain ⟨p, q, rfl⟩ : ∃ (p : Fin 2000) (q : Fin 128), j = ix2 p q := ⟨j 0, j 1, eq_ix2 j⟩
  unfold k0_pay1
  refine (matmul0_rows_cols _ rfl rfl rfl rfl rfl rfl _ _ p q).trans ?_
  show _ = Cert.Spec.scaleMMAt x0 x1 x2 p q
  unfold Cert.Spec.scaleMMAt
  refine Finset.sum_congr rfl fun k _ => ?_
  rw [shapeCast_self, shapeCast_self]
  show x0 (ix2 p k) * broadcastTo S2000x128 x1 broadcasts_S2000x1_S2000x128 (ix2 p k) * x2 (ix2 k q) = _
  rw [broadcastTo_a1_ab_apply]

theorem pay1 (x0 : Vec Ideal S2000x128 .f32) (x1 : Vec Ideal S2000x1 .f32) (x2 : Vec Ideal S1x128 .f32) (x3 : Vec Ideal S2000x128 .f32) :
    k1_pay1 (F := Ideal) x0 x1 x2 x3 = Cert.Spec.post x0 x1 x2 x3 := by
  funext j
  obtain ⟨p, q, rfl⟩ : ∃ (p : Fin 2000) (q : Fin 128), j = ix2 p q := ⟨j 0, j 1, eq_ix2 j⟩
  unfold k1_pay1
  show _ = Cert.Spec.postAt x0 x1 x2 x3 p q
  unfold Cert.Spec.postAt
  rw [shapeCast_self, shapeCast_self, shapeCast_self]
  show (x0 (ix2 p q) * broadcastTo S2000x128 x1 broadcasts_S2000x1_S2000x128 (ix2 p q)
      + broadcastTo S2000x128 x2 broadcasts_S1x128_S2000x128 (ix2 p q))
      + Ideal.ofBits .f32 0x3E4CCCCD#32 * x3 (ix2 p q) = _
  rw [broadcastTo_a1_ab_apply, broadcastTo_1b_ab_apply]

theorem pay2 (x0 : Vec Ideal S2000x128 .f32) (x1 : Vec Ideal S1x128 .f32) (x2 : Vec Ideal S1x128 .f32) (x3 : Vec Ideal S2000x1 .f32) (x4 : Vec Ideal S128x128 .bf16) :
    k2_pay1 (F := Ideal) x0 x1 x2 x3 x4 = Cert.Spec.lnMM x0 x1 x2 x3 x4 := by
  funext j
  obtain ⟨p, q, rfl⟩ : ∃ (p : Fin 2000) (q : Fin 128), j = ix2 p q := ⟨j 0, j 1, eq_ix2 j⟩
  unfold k2_pay1
  refine (matmul0_rows_cols _ rfl rfl rfl rfl rfl rfl _ _ p q).trans ?_
  show _ = Cert.Spec.lnMMAt x0 x1 x2 x3 x4 p q
  unfold Cert.Spec.lnMMAt
  refine Finset.sum_congr rfl fun k _ => ?_
  simp only [shapeCast_self]
  have hm := fun (p : Fin 2000) (u : Fin 1) => mean_read x0 p u
  have hd := fun (p : Fin 2000) (k : Fin 128) => dev_read x0 _ hm p k
  have hv := fun (p : Fin 2000) (u : Fin 1) => var_read x0 _ hd p u
  have hs := fun (p : Fin 2000) (u : Fin 1) => istd_read x0 _ hv p u
  exact congrArg₂ (· * ·)
    (congrArg₂ (· * ·) (lnRelu_read x0 _ _ hd hs x1 x2 p k) (broadcastTo_a1_ab_apply x3 broadcasts_S2000x1_S2000x128 p k))
    rfl

theorem pay3 (x0 : Vec Ideal S2000x128 .f32) (x1 : Vec Ideal S2000x1 .f32) (x2 : Vec Ideal S1x128 .f32) (x3 : Vec Ideal S2000x128 .f32) :
    k3_pay1 (F := Ideal) x0 x1 x2 x3 = Cert.Spec.post x0 x1 x2 x3 := by
  exact pay1 x0 x1 x2 x3

theorem pay4 (x0 : Vec Ideal S2000x128 .f32) (x1 : Vec Ideal S1x128 .f32) (x2 : Vec Ideal S1x128 .f32) (x3 : Vec Ideal S2000x1 .f32) (x4 : Vec Ideal S128x128 .bf16) :
    k4_pay1 (F := Ideal) x0 x1 x2 x3 x4 = Cert.Spec.lnMM x0 x1 x2 x3 x4 := by
  exact pay2 x0 x1 x2 x3 x4

theorem pay5 (x0 : Vec Ideal S2000x128 .f32) (x1 : Vec Ideal S2000x1 .f32) (x2 : Vec Ideal S1x128 .f32) (x3 : Vec Ideal S2000x128 .f32) :
    k5_pay1 (F := Ideal) x0 x1 x2 x3 = Cert.Spec.post x0 x1 x2 x3 := by
  exact pay1 x0 x1 x2 x3

end Cert.KernelIdeal.Pay

end
-- ==== Proof.KI.Region0.lean ====
/-
  Region 0: the array its output window leaves, as one row-wise map of the arrays the region finds at its entry.
-/
import proofs.«417709_j60155311947854_1_alg».proof.Proof.Gen.KernelIdeal.Frame
import proofs.«417709_j60155311947854_1_alg».proof.Proof.KI.Pay

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole block, however spelt. -/
theorem zero_offsets : (![0, 0] : Fin 2 → Nat) = fun _ => 0 := funext fun a => by fin_cases a <;> rfl

/-- Point t works on block t of the 2000-row tiling of the feature matrix, of the scale column and of the result;
    the weight matrix is one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block t is row t · 2000 + p of the array. -/
def rowOf (t : Fin 50) (p : Fin 2000) : Fin 100000 :=
  ⟨t.val * 2000 + p.val, by have := t.isLt; have := p.isLt; omega⟩

/-- The feature block at point t is rows t · 2000 … t · 2000 + 1999 of the feature matrix. -/
theorem features_block (c : Dev nD) (t : Fin cfg0.N) :
    iblk0 V c 0 t = Cert.Spec.pickM (rowOf t) (V c main_arg2) := by
  obtain ⟨e0, e1, -⟩ := block_index t
  funext y
  show V c main_arg2 (((cfg0.win 0).blk t).view.emb y) = V c main_arg2 (ix2 (rowOf t (y 0)) (y 1))
  refine congrArg _ ?_
  funext a; apply Fin.ext
  match a with
  | ⟨0, _⟩ => show win0_0.index t (0 : Fin 2) * 2000 + 1 * (y 0).val = t.val * 2000 + (y 0).val; omega
  | ⟨1, _⟩ => show win0_0.index t (1 : Fin 2) * 128 + 1 * (y 1).val = (y 1).val; omega

/-- The scale block at point t is the same rows of the scale column. -/
theorem scale_block (c : Dev nD) (t : Fin cfg0.N) :
    iblk0 V c 1 t = Cert.Spec.pickC (rowOf t) (V c main_v12) := by
  obtain ⟨-, -, e0, e1, -⟩ := block_index t
  funext y
  show V c main_v12 (((cfg0.win 1).blk t).view.emb y) = V c main_v12 (ix2 (rowOf t (y 0)) (y 1))
  refine congrArg _ ?_
  funext a; apply Fin.ext
  match a with
  | ⟨0, _⟩ => show win0_1.index t (0 : Fin 2) * 2000 + 1 * (y 0).val = t.val * 2000 + (y 0).val; omega
  | ⟨1, _⟩ => show win0_1.index t (1 : Fin 2) * 1 + 1 * (y 1).val = (y 1).val; omega

/-- The weight block at every point is the whole weight matrix. -/
theorem weight_block (c : Dev nD) (t : Fin cfg0.N) :
    iblk0 V c 2 t = V c main_v21 := by
  obtain ⟨-, -, -, -, e0, e1, -⟩ := block_index t
  funext y
  show V c main_v21 (((cfg0.win 2).blk t).view.emb y) = V c main_v21 y
  refine congrArg _ ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Block t of any matrix over the result's array is its rows t · 2000 … t · 2000 + 1999. -/
theorem result_block (t : Fin cfg0.N) (G : Cert.Spec.Mat 100000) :
    ((cfg0.win 3).blk t).view.read (Elt Ideal) G = Cert.Spec.pickM (rowOf t) G := by
  obtain ⟨-, -, -, -, -, -, e0, e1⟩ := block_index t
  funext y
  show G (((cfg0.win 3).blk t).view.emb y) = G (ix2 (rowOf t (y 0)) (y 1))
  refine congrArg _ ?_
  funext a; apply Fin.ext
  match a with
  | ⟨0, _⟩ => show win0_3.index t (0 : Fin 2) * 2000 + 1 * (y 0).val = t.val * 2000 + (y 0).val; omega
  | ⟨1, _⟩ => show win0_3.index t (1 : Fin 2) * 128 + 1 * (y 1).val = (y 1).val; omega

/-- What point t writes back is block t of the scaled product of the arrays the region finds: the body's store is
    the scaled product of its blocks, the blocks are rows of the arrays, and the product is row-wise. -/
theorem flushed_eq (c : Dev nD) (t : Fin cfg0.N) :
    (dat0 V c).flushed 3 t = ((cfg0.win 3).blk t).view.read (Elt Ideal)
      (Cert.Spec.scaleMM (R := 100000) (V c main_arg2) (V c main_v12) (V c main_v21)) := by
  show (cfg0.win 3).cut (grid0.coords t) ((dat0 V c).after 3 t) = _
  rw [after0_3]
  unfold out0_3
  rw [View.canon_unit_zero zero_offsets]
  simp only [View.ld_unit_zero (S := S2000x128) zero_offsets, View.ld_unit_zero (S := S2000x1) zero_offsets,
    View.ld_unit_zero (S := S128x128) zero_offsets]
  rw [Pay.pay0, features_block, scale_block, weight_block, result_block, Cert.Spec.scaleMM_rows]
  rfl

/-- An index of the result's array is in point t's block iff each coordinate is in the block's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v23).slice (win0_3.rect t)).set ↔ _
  rw [View.set_slice_whole, Rect.mem_set_unit]
  exact Iff.rfl

/-- Every index of the result's array is in the block of the point its row falls in. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 2000, by show _ < 50; omega⟩
  have ht : t.val = (i 0).val / 2000 := rfl
  obtain ⟨-, -, -, -, -, -, e0, e1⟩ := block_index t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

theorem final (c : Dev nD) :
    (dat0 V c).arrAt 3 cfg0.N = Cert.Spec.scaleMM (R := 100000) (V c main_arg2) (V c main_v12) (V c main_v21) :=
  (dat0 V c).arrAt_eq_of_cover 3 _ (fun t _ => flushed_eq V c t) covered

end Cert.KernelIdeal.Region0

end
-- ==== Proof.KI.Region1.lean ====
/-
  Region 1: the array its output window leaves, as one row-wise map of the arrays the region finds at its entry.
-/
import proofs.«417709_j60155311947854_1_alg».proof.Proof.Gen.KernelIdeal.Frame
import proofs.«417709_j60155311947854_1_alg».proof.Proof.KI.Pay

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole block, however spelt. -/
theorem zero_offsets : (![0, 0] : Fin 2 → Nat) = fun _ => 0 := funext fun a => by fin_cases a <;> rfl

/-- Point t works on block t of the 2000-row tiling of the aggregated features, of the scale column, of the
    residual features and of the result; the bias row is one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of block t is row t · 2000 + p of the array. -/
def rowOf (t : Fin 50) (p : Fin 2000) : Fin 100000 :=
  ⟨t.val * 2000 + p.val, by have := t.isLt; have := p.isLt; omega⟩

/-- The aggregated block at point t is rows t · 2000 … t · 2000 + 1999 of the aggregated features. -/
theorem aggregated_block (c : Dev nD) (t : Fin cfg1.N) :
    iblk1 V c 0 t = Cert.Spec.pickM (rowOf t) (V c main_v27) := by
  obtain ⟨e0, e1, -⟩ := block_index t
  funext y
  show V c main_v27 (((cfg1.win 0).blk t).view.emb y) = V c main_v27 (ix2 (rowOf t (y 0)) (y 1))
  refine congrArg _ ?_
  funext a; apply Fin.ext
  match a with
  | ⟨0, _⟩ => show win1_0.index t (0 : Fin 2) * 2000 + 1 * (y 0).val = t.val * 2000 + (y 0).val; omega
  | ⟨1, _⟩ => show win1_0.index t (1 : Fin 2) * 128 + 1 * (y 1).val = (y 1).val; omega

/-- The scale block at point t is the same rows of the scale column. -/
theorem scale_block (c : Dev nD) (t : Fin cfg1.N) :
    iblk1 V c 1 t = Cert.Spec.pickC (rowOf t) (V c main_v14) := by
  obtain ⟨-, -, e0, e1, -⟩ := block_index t
  funext y
  show V c main_v14 (((cfg1.win 1).blk t).view.emb y) = V c main_v14 (ix2 (rowOf t (y 0)) (y 1))
  refine congrArg _ ?_
  funext a; apply Fin.ext
  match a with
  | ⟨0, _⟩ => show win1_1.index t (0 : Fin 2) * 2000 + 1 * (y 0).val = t.val * 2000 + (y 0).val; omega
  | ⟨1, _⟩ => show win1_1.index t (1 : Fin 2) * 1 + 1 * (y 1).val = (y 1).val; omega

/-- The bias block at every point is the whole bias row. -/
theorem bias_block (c : Dev nD) (t : Fin cfg1.N) :
    iblk1 V c 2 t = V c main_v15 := by
  obtain ⟨-, -, -, -, e0, e1, -⟩ := block_index t
  funext y
  show V c main_v15 (((cfg1.win 2).blk t).view.emb y) = V c main_v15 y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The residual block at point t is the same rows of the input features. -/
theorem residual_block (c : Dev nD) (t : Fin cfg1.N) :
    iblk1 V c 3 t = Cert.Spec.pickM (rowOf t) (V c main_arg2) := by
  obtain ⟨-, -, -, -, -, -, e0, e1, -⟩ := block_index t
  funext y
  show V c main_arg2 (((cfg1.win 3).blk t).view.emb y) = V c main_arg2 (ix2 (rowOf t (y 0)) (y 1))
  refine congrArg _ ?_
  funext a; apply Fin.ext
  match a with
  | ⟨0, _⟩ => show win1_3.index t (0 : Fin 2) * 2000 + 1 * (y 0).val = t.val * 2000 + (y 0).val; omega
  | ⟨1, _⟩ => show win1_3.index t (1 : Fin 2) * 128 + 1 * (y 1).val = (y 1).val; omega

/-- Block t of any matrix over the result's array is its rows t · 2000 … t · 2000 + 1999. -/
theorem result_block (t : Fin cfg1.N) (G : Cert.Spec.Mat 100000) :
    ((cfg1.win 4).blk t).view.read (Elt Ideal) G = Cert.Spec.pickM (rowOf t) G := by
  obtain ⟨-, -, -, -, -, -, -, -, e0, e1⟩ := block_index t
  funext y
  show G (((cfg1.win 4).blk t).view.emb y) = G (ix2 (rowOf t (y 0)) (y 1))
  refine congrArg _ ?_
  funext a; apply Fin.ext
  match a with
  | ⟨0, _⟩ => show win1_4.index t (0 : Fin 2) * 2000 + 1 * (y 0).val = t.val * 2000 + (y 0).val; omega
  | ⟨1, _⟩ => show win1_4.index t (1 : Fin 2) * 128 + 1 * (y 1).val = (y 1).val; omega

/-- What point t writes back is block t of the scaled, shifted aggregate plus the residual of the arrays the region
    finds: the body's store is that map of its blocks, the blocks are rows of the arrays, and the map is row-wise. -/
theorem flushed_eq (c : Dev nD) (t : Fin cfg1.N) :
    (dat1 V c).flushed 4 t = ((cfg1.win 4).blk t).view.read (Elt Ideal)
      (Cert.Spec.post (R := 100000) (V c main_v27) (V c main_v14) (V c main_v15) (V c main_arg2)) := by
  show (cfg1.win 4).cut (grid1.coords t) ((dat1 V c).after 4 t) = _
  rw [after1_4]
  unfold out1_4
  rw [View.canon_unit_zero zero_offsets]
  simp only [View.ld_unit_zero (S := S2000x128) zero_offsets, View.ld_unit_zero (S := S2000x1) zero_offsets,
    View.ld_unit_zero (S := S1x128) zero_offsets]
  rw [Pay.pay1, aggregated_block, scale_block, bias_block, residual_block, result_block, Cert.Spec.post_rows]
  rfl

/-- An index of the result's array is in point t's block iff each coordinate is in the block's range on its axis. -/
theorem mem_blk (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v28).slice (win1_4.rect t)).set ↔ _
  rw [View.set_slice_whole, Rect.mem_set_unit]
  exact Iff.rfl

/-- Every index of the result's array is in the block of the point its row falls in. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 2000, by show _ < 50; omega⟩
  have ht : t.val = (i 0).val / 2000 := rfl
  obtain ⟨-, -, -, -, -, -, -, -, e0, e1⟩ := block_index t
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

theorem final (c : Dev nD) :
    (dat1 V c).arrAt 4 cfg1.N = Cert.Spec.post (R := 100000) (V c main_v27) (V c main_v14) (V c main_v15) (V c main_arg2) :=
  (dat1 V c).arrAt_eq_of_cover 4 _ (fun t _ => flushed_eq V c t) covered

end Cert.KernelIdeal.Region1

end
-- ==== Proof.KI.Region2.lean ====
/-
  Region 2: the array its output window leaves, as one row-wise map of the arrays the region finds at its entry.
-/
import proofs.«417709_j60155311947854_1_alg».proof.Proof.Gen.KernelIdeal.Frame
import proofs.«417709_j60155311947854_1_alg».proof.Proof.KI.Pay

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, however spelt. -/
theorem hz : (![0, 0] : Fin 2 → Nat) = fun _ => 0 := funext fun a => by fin_cases a <;> rfl

/-- The windows' index maps at each of the 50 grid points: the row-tiled windows sit at block (t, 0), the parameter
    windows at block (0, 0). -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The grid has 50 points. -/
theorem point_lt (t : Fin cfg2.N) : t.val < 50 := t.isLt

/-- Row p of block t is row 2000 t + p of the array. -/
def rowOf (t : Fin cfg2.N) (p : Fin 2000) : Fin 100000 :=
  ⟨t.val * 2000 + p.val, by have := point_lt t; have := p.isLt; omega⟩

/-- The feature window's block at point t is rows 2000 t … 2000 t + 1999 of the feature matrix. -/
theorem features_block (c : Dev nD) (t : Fin cfg2.N) :
    iblk2 V c 0 t = Cert.Spec.pickM (rowOf t) (V c main_v28) := by
  obtain ⟨e0, e1, -⟩ := block_index t
  funext y
  show V c main_v28 (((cfg2.win 0).blk t).view.emb y) = V c main_v28 (ix2 (rowOf t (y 0)) (y 1))
  refine congrArg _ ?_
  funext a; apply Fin.ext
  match a with
  | ⟨0, _⟩ => show win2_0.index t (0 : Fin 2) * 2000 + 1 * (y 0).val = t.val * 2000 + (y 0).val; omega
  | ⟨1, _⟩ => show win2_0.index t (1 : Fin 2) * 128 + 1 * (y 1).val = (y 1).val; omega

/-- The column window's block at point t is the same rows of the column. -/
theorem column_block (c : Dev nD) (t : Fin cfg2.N) :
    iblk2 V c 3 t = Cert.Spec.pickC (rowOf t) (V c main_v12) := by
  obtain ⟨-, -, -, -, -, -, e0, e1, -⟩ := block_index t
  funext y
  show V c main_v12 (((cfg2.win 3).blk t).view.emb y) = V c main_v12 (ix2 (rowOf t (y 0)) (y 1))
  refine congrArg _ ?_
  funext a; apply Fin.ext
  match a with
  | ⟨0, _⟩ => show win2_3.index t (0 : Fin 2) * 2000 + 1 * (y 0).val = t.val * 2000 + (y 0).val; omega
  | ⟨1, _⟩ => show win2_3.index t (1 : Fin 2) * 1 + 1 * (y 1).val = (y 1).val; omega

/-- The gain row's window is the whole row at every point. -/
theorem gain_block (c : Dev nD) (t : Fin cfg2.N) : iblk2 V c 1 t = V c main_v17 := by
  obtain ⟨-, -, e0, e1, -⟩ := block_index t
  funext y
  show V c main_v17 (((cfg2.win 1).blk t).view.emb y) = V c main_v17 y
  refine congrArg _ ?_
  funext a; apply Fin.ext
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- The shift row's window is the whole row at every point. -/
theorem shift_block (c : Dev nD) (t : Fin cfg2.N) : iblk2 V c 2 t = V c main_v18 := by
  obtain ⟨-, -, -, -, e0, e1, -⟩ := block_index t
  funext y
  show V c main_v18 (((cfg2.win 2).blk t).view.emb y) = V c main_v18 y
  refine congrArg _ ?_
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The weight matrix's window is the whole matrix at every point. -/
theorem weight_block (c : Dev nD) (t : Fin cfg2.N) : iblk2 V c 4 t = V c main_v22 := by
  obtain ⟨-, -, -, -, -, -, -, -, e0, e1, -⟩ := block_index t
  funext y
  show V c main_v22 (((cfg2.win 4).blk t).view.emb y) = V c main_v22 y
  refine congrArg _ ?_
  funext a; apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- The output window's block of a matrix is its rows 2000 t … 2000 t + 1999. -/
theorem result_block (t : Fin cfg2.N) (G : Cert.Spec.Mat 100000) :
    ((cfg2.win 5).blk t).view.read (Elt Ideal) G = Cert.Spec.pickM (rowOf t) G := by
  obtain ⟨-, -, -, -, -, -, -, -, -, -, e0, e1⟩ := block_index t
  funext y
  show G (((cfg2.win 5).blk t).view.emb y) = G (ix2 (rowOf t (y 0)) (y 1))
  refine congrArg _ ?_
  funext a; apply Fin.ext
  match a with
  | ⟨0, _⟩ => show win2_5.index t (0 : Fin 2) * 2000 + 1 * (y 0).val = t.val * 2000 + (y 0).val; omega
  | ⟨1, _⟩ => show win2_5.index t (1 : Fin 2) * 128 + 1 * (y 1).val = (y 1).val; omega

/-- What point t writes back is rows 2000 t … 2000 t + 1999 of the layer-normalised product of the whole arrays:
    the body's map is row-wise, so it commutes with picking rows. -/
theorem flushed_eq (c : Dev nD) (t : Fin cfg2.N) :
    (dat2 V c).flushed 5 t = ((cfg2.win 5).blk t).view.read (Elt Ideal)
      (Cert.Spec.lnMM (R := 100000) (V c main_v28) (V c main_v17) (V c main_v18) (V c main_v12) (V c main_v22)) := by
  show (cfg2.win 5).cut (grid2.coords t) ((dat2 V c).after 5 t) = _
  rw [after2_5]
  unfold out2_5
  rw [View.canon_unit_zero hz]
  simp only [View.ld_unit_zero (S := S2000x128) hz, View.ld_unit_zero (S := S1x128) hz, View.ld_unit_zero (S := S2000x1) hz, View.ld_unit_zero (S := S128x128) hz]
  rw [Cert.KernelIdeal.Pay.pay2, features_block, gain_block, shift_block, column_block, weight_block, result_block, Cert.Spec.lnMM_rows]
  rfl

/-- An index of the array is in point t's block iff each coordinate is in the block's range on its axis. -/
theorem mem_blk (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v29).slice (win2_5.rect t)).set ↔ _
  rw [View.set_slice_whole, Rect.mem_set_unit]
  exact Iff.rfl

/-- Every index of the array lies in the block of the point numbered by its row divided by 2000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, by show _ < 50; omega⟩, rfl⟩
  obtain ⟨-, -, -, -, -, -, -, -, -, -, e0, e1⟩ := block_index t
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The blocks cover the array, so it ends holding the layer-normalised product of the arrays at entry. -/
theorem final (c : Dev nD) :
    (dat2 V c).arrAt 5 cfg2.N = Cert.Spec.lnMM (R := 100000) (V c main_v28) (V c main_v17) (V c main_v18) (V c main_v12) (V c main_v22) := by
  exact (dat2 V c).arrAt_eq_of_cover 5
    (Cert.Spec.lnMM (R := 100000) (V c main_v28) (V c main_v17) (V c main_v18) (V c main_v12) (V c main_v22))
    (fun t _ => flushed_eq V c t) cover

end Cert.KernelIdeal.Region2

end
-- ==== Proof.KI.Region3.lean ====
/-
  Region 3: the array its output window leaves, as one row-wise map of the arrays the region finds at its entry.
-/
import proofs.«417709_j60155311947854_1_alg».proof.Proof.Gen.KernelIdeal.Frame
import proofs.«417709_j60155311947854_1_alg».proof.Proof.KI.Pay

set_option maxRecDepth 16384

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole block, however spelt. -/
theorem zero_offsets : (![0, 0] : Fin 2 → Nat) = fun _ => 0 := funext fun a => by fin_cases a <;> rfl

/-- Point t works on block t of the 2000-row tiling of the aggregated features, of the scale column, of the
    residual features and of the result; the bias row is one block. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Row p of block t is row t · 2000 + p of the array. -/
def rowOf (t : Fin 50) (p : Fin 2000) : Fin 100000 :=
  ⟨t.val * 2000 + p.val, by have := t.isLt; have := p.isLt; omega⟩

/-- The aggregated block at point t is rows t · 2000 … t · 2000 + 1999 of the aggregated features. -/
theorem aggregated_block (c : Dev nD) (t : Fin cfg3.N) :
    iblk3 V c 0 t = Cert.Spec.pickM (rowOf t) (V c main_v33) := by
  obtain ⟨e0, e1, -⟩ := block_index t
  funext y
  show V c main_v33 (((cfg3.win 0).blk t).view.emb y) = V c main_v33 (ix2 (rowOf t (y 0)) (y 1))
  refine congrArg _ ?_
  funext a; apply Fin.ext
  match a with
  | ⟨0, _⟩ => show win3_0.index t (0 : Fin 2) * 2000 + 1 * (y 0).val = t.val * 2000 + (y 0).val; omega
  | ⟨1, _⟩ => show win3_0.index t (1 : Fin 2) * 128 + 1 * (y 1).val = (y 1).val; omega

/-- The scale block at point t is the same rows of the scale column. -/
theorem scale_block (c : Dev nD) (t : Fin cfg3.N) :
    iblk3 V c 1 t = Cert.Spec.pickC (rowOf t) (V c main_v14) := by
  obtain ⟨-, -, e0, e1, -⟩ := block_index t
  funext y
  show V c main_v14 (((cfg3.win 1).blk t).view.emb y) = V c main_v14 (ix2 (rowOf t (y 0)) (y 1))
  refine congrArg _ ?_
  funext a; apply Fin.ext
  match a with
  | ⟨0, _⟩ => show win3_1.index t (0 : Fin 2) * 2000 + 1 * (y 0).val = t.val * 2000 + (y 0).val; omega
  | ⟨1, _⟩ => show win3_1.index t (1 : Fin 2) * 1 + 1 * (y 1).val = (y 1).val; omega

/-- The bias block at every point is the whole bias row. -/
theorem bias_block (c : Dev nD) (t : Fin cfg3.N) :
    iblk3 V c 2 t = V c main_v16 := by
  obtain ⟨-, -, -, -, e0, e1, -⟩ := block_index t
  funext y
  show V c main_v16 (((cfg3.win 2).blk t).view.emb y) = V c main_v16 y
  refine congrArg _ ?_
  funext a; apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The residual block at point t is the same rows of the input features. -/
theorem residual_block (c : Dev nD) (t : Fin cfg3.N) :
    iblk3 V c 3 t = Cert.Spec.pickM (rowOf t) (V c main_arg2) := by
  obtain ⟨-, -, -, -, -, -, e0, e1, -⟩ := block_index t
  funext y
  show V c main_arg2 (((cfg3.win 3).blk t).view.emb y) = V c main_arg2 (ix2 (rowOf t (y 0)) (y 1))
  refine congrArg _ ?_
  funext a; apply Fin.ext
  match a with
  | ⟨0, _⟩ => show win3_3.index t (0 : Fin 2) * 2000 + 1 * (y 0).val = t.val * 2000 + (y 0).val; omega
  | ⟨1, _⟩ => show win3_3.index t (1 : Fin 2) * 128 + 1 * (y 1).val = (y 1).val; omega

/-- Block t of any matrix over the result's array is its rows t · 2000 … t · 2000 + 1999. -/
theorem result_block (t : Fin cfg3.N) (G : Cert.Spec.Mat 100000) :
    ((cfg3.win 4).blk t).view.read (Elt Ideal) G = Cert.Spec.pickM (rowOf t) G := by
  obtain ⟨-, -, -, -, -, -, -, -, e0, e1⟩ := block_index t
  funext y
  show G (((cfg3.win 4).blk t).view.emb y) = G (ix2 (rowOf t (y 0)) (y 1))
  refine congrArg _ ?_
  funext a; apply Fin.ext
  match a with
  | ⟨0, _⟩ => show win3_4.index t (0 : Fin 2) * 2000 + 1 * (y 0).val = t.val * 2000 + (y 0).val; omega
  | ⟨1, _⟩ => show win3_4.index t (1 : Fin 2) * 128 + 1 * (y 1).val = (y 1).val; omega

/-- What point t writes back is block t of the scaled, shifted aggregate plus the residual of the arrays the region
    finds: the body's store is that map of its blocks, the blocks are rows of the arrays, and the map is row-wise. -/
theorem flushed_eq (c : Dev nD) (t : Fin cfg3.N) :
    (dat3 V c).flushed 4 t = ((cfg3.win 4).blk t).view.read (Elt Ideal)
      (Cert.Spec.post (R := 100000) (V c main_v33) (V c main_v14) (V c main_v16) (V c main_arg2)) := by
  show (cfg3.win 4).cut (grid3.coords t) ((dat3 V c).after 4 t) = _
  rw [after3_4]
  unfold out3_4
  rw [View.canon_unit_zero zero_offsets]
  simp only [View.ld_unit_zero (S := S2000x128) zero_offsets, View.ld_unit_zero (S := S2000x1) zero_offsets,
    View.ld_unit_zero (S := S1x128) zero_offsets]
  rw [Pay.pay3, aggregated_block, scale_block, bias_block, residual_block, result_block, Cert.Spec.post_rows]
  rfl

/-- An index of the result's array is in point t's block iff each coordinate is in the block's range on its axis. -/
theorem mem_blk (t : Fin cfg3.N) (i : S100000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v34).slice (win3_4.rect t)).set ↔ _
  rw [View.set_slice_whole, Rect.mem_set_unit]
  exact Iff.rfl

/-- Every index of the result's array is in the block of the point its row falls in. -/
theorem covered (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  let t : Fin cfg3.N := ⟨(i 0).val / 2000, by show _ < 50; omega⟩
  have ht : t.val = (i 0).val / 2000 := rfl
  obtain ⟨-, -, -, -, -, -, -, -, e0, e1⟩ := block_index t
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

theorem final (c : Dev nD) :
    (dat3 V c).arrAt 4 cfg3.N = Cert.Spec.post (R := 100000) (V c main_v33) (V c main_v14) (V c main_v16) (V c main_arg2) :=
  (dat3 V c).arrAt_eq_of_cover 4 _ (fun t _ => flushed_eq V c t) covered

end Cert.KernelIdeal.Region3

end
-- ==== Proof.KI.Region4.lean ====
/-
  Region 4: the array its output window leaves, as one row-wise map of the arrays the region finds at its entry.
-/
import proofs.«417709_j60155311947854_1_alg».proof.Proof.Gen.KernelIdeal.Frame
import proofs.«417709_j60155311947854_1_alg».proof.Proof.KI.Pay

set_option maxRecDepth 16384

noncomputable section

namespace Cert.KernelIdeal.Region4

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, however spelt. -/
theorem hz : (![0, 0] : Fin 2 → Nat) = fun _ => 0 := funext fun a => by fin_cases a <;> rfl

/-- The windows' index maps at each of the 50 grid points: the row-tiled windows sit at block (t, 0), the parameter
    windows at block (0, 0). -/
theorem block_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The grid has 50 points. -/
theorem point_lt (t : Fin cfg4.N) : t.val < 50 := t.isLt

/-- Row p of block t is row 2000 t + p of the array. -/
def rowOf (t : Fin cfg4.N) (p : Fin 2000) : Fin 100000 :=
  ⟨t.val * 2000 + p.val, by have := point_lt t; have := p.isLt; omega⟩

/-- The feature window's block at point t is rows 2000 t … 2000 t + 1999 of the feature matrix. -/
theorem features_block (c : Dev nD) (t : Fin cfg4.N) :
    iblk4 V c 0 t = Cert.Spec.pickM (rowOf t) (V c main_v34) := by
  obtain ⟨e0, e1, -⟩ := block_index t
  funext y
  show V c main_v34 (((cfg4.win 0).blk t).view.emb y) = V c main_v34 (ix2 (rowOf t (y 0)) (y 1))
  refine congrArg _ ?_
  funext a; apply Fin.ext
  match a with
  | ⟨0, _⟩ => show win4_0.index t (0 : Fin 2) * 2000 + 1 * (y 0).val = t.val * 2000 + (y 0).val; omega
  | ⟨1, _⟩ => show win4_0.index t (1 : Fin 2) * 128 + 1 * (y 1).val = (y 1).val; omega

/-- The column window's block at point t is the same rows of the column. -/
theorem column_block (c : Dev nD) (t : Fin cfg4.N) :
    iblk4 V c 3 t = Cert.Spec.pickC (rowOf t) (V c main_v12) := by
  obtain ⟨-, -, -, -, -, -, e0, e1, -⟩ := block_index t
  funext y
  show V c main_v12 (((cfg4.win 3).blk t).view.emb y) = V c main_v12 (ix2 (rowOf t (y 0)) (y 1))
  refine congrArg _ ?_
  funext a; apply Fin.ext
  match a with
  | ⟨0, _⟩ => show win4_3.index t (0 : Fin 2) * 2000 + 1 * (y 0).val = t.val * 2000 + (y 0).val; omega
  | ⟨1, _⟩ => show win4_3.index t (1 : Fin 2) * 1 + 1 * (y 1).val = (y 1).val; omega

/-- The gain row's window is the whole row at every point. -/
theorem gain_block (c : Dev nD) (t : Fin cfg4.N) : iblk4 V c 1 t = V c main_v19 := by
  obtain ⟨-, -, e0, e1, -⟩ := block_index t
  funext y
  show V c main_v19 (((cfg4.win 1).blk t).view.emb y) = V c main_v19 y
  refine congrArg _ ?_
  funext a; apply Fin.ext
  match a with
  | ⟨0, _⟩ => show win4_1.index t (0 : Fin 2) * 1 + 1 * (y 0).val = (y 0).val; omega
  | ⟨1, _⟩ => show win4_1.index t (1 : Fin 2) * 128 + 1 * (y 1).val = (y 1).val; omega

/-- The shift row's window is the whole row at every point. -/
theorem shift_block (c : Dev nD) (t : Fin cfg4.N) : iblk4 V c 2 t = V c main_v20 := by
  obtain ⟨-, -, -, -, e0, e1, -⟩ := block_index t
  funext y
  show V c main_v20 (((cfg4.win 2).blk t).view.emb y) = V c main_v20 y
  refine congrArg _ ?_
  funext a; apply Fin.ext
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- The weight matrix's window is the whole matrix at every point. -/
theorem weight_block (c : Dev nD) (t : Fin cfg4.N) : iblk4 V c 4 t = V c main_v22 := by
  obtain ⟨-, -, -, -, -, -, -, -, e0, e1, -⟩ := block_index t
  funext y
  show V c main_v22 (((cfg4.win 4).blk t).view.emb y) = V c main_v22 y
  refine congrArg _ ?_
  funext a; apply Fin.ext
  match a with
  | ⟨0, _⟩ => show win4_4.index t (0 : Fin 2) * 128 + 1 * (y 0).val = (y 0).val; omega
  | ⟨1, _⟩ => show win4_4.index t (1 : Fin 2) * 128 + 1 * (y 1).val = (y 1).val; omega

/-- The output window's block of a matrix is its rows 2000 t … 2000 t + 1999. -/
theorem result_block (t : Fin cfg4.N) (G : Cert.Spec.Mat 100000) :
    ((cfg4.win 5).blk t).view.read (Elt Ideal) G = Cert.Spec.pickM (rowOf t) G := by
  obtain ⟨-, -, -, -, -, -, -, -, -, -, e0, e1⟩ := block_index t
  funext y
  show G (((cfg4.win 5).blk t).view.emb y) = G (ix2 (rowOf t (y 0)) (y 1))
  refine congrArg _ ?_
  funext a; apply Fin.ext
  match a with
  | ⟨0, _⟩ => show win4_5.index t (0 : Fin 2) * 2000 + 1 * (y 0).val = t.val * 2000 + (y 0).val; omega
  | ⟨1, _⟩ => show win4_5.index t (1 : Fin 2) * 128 + 1 * (y 1).val = (y 1).val; omega

/-- What point t writes back is rows 2000 t … 2000 t + 1999 of the layer-normalised product of the whole arrays:
    the body's map is row-wise, so it commutes with picking rows. -/
theorem flushed_eq (c : Dev nD) (t : Fin cfg4.N) :
    (dat4 V c).flushed 5 t = ((cfg4.win 5).blk t).view.read (Elt Ideal)
      (Cert.Spec.lnMM (R := 100000) (V c main_v34) (V c main_v19) (V c main_v20) (V c main_v12) (V c main_v22)) := by
  show (cfg4.win 5).cut (grid4.coords t) ((dat4 V c).after 5 t) = _
  rw [after4_5]
  unfold out4_5
  rw [View.canon_unit_zero hz]
  simp only [View.ld_unit_zero (S := S2000x128) hz, View.ld_unit_zero (S := S1x128) hz, View.ld_unit_zero (S := S2000x1) hz, View.ld_unit_zero (S := S128x128) hz]
  rw [Cert.KernelIdeal.Pay.pay4, features_block, gain_block, shift_block, column_block, weight_block, result_block, Cert.Spec.lnMM_rows]
  rfl

/-- An index of the array is in point t's block iff each coordinate is in the block's range on its axis. -/
theorem mem_blk (t : Fin cfg4.N) (i : S100000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v35).slice (win4_5.rect t)).set ↔ _
  rw [View.set_slice_whole, Rect.mem_set_unit]
  exact Iff.rfl

/-- Every index of the array lies in the block of the point numbered by its row divided by 2000. -/
theorem cover (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  obtain ⟨t, ht⟩ : ∃ t : Fin cfg4.N, t.val = (i 0).val / 2000 :=
    ⟨⟨(i 0).val / 2000, by show _ < 50; omega⟩, rfl⟩
  obtain ⟨-, -, -, -, -, -, -, -, -, -, e0, e1⟩ := block_index t
  refine ⟨t, flush4_5 t, ?_⟩
  rw [mem_blk]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 128 ≤ (i 1).val ∧ (i 1).val < win4_5.index t (1 : Fin 2) * 128 + 128; omega

/-- The blocks cover the array, so it ends holding the layer-normalised product of the arrays at entry. -/
theorem final (c : Dev nD) :
    (dat4 V c).arrAt 5 cfg4.N = Cert.Spec.lnMM (R := 100000) (V c main_v34) (V c main_v19) (V c main_v20) (V c main_v12) (V c main_v22) := by
  exact (dat4 V c).arrAt_eq_of_cover 5
    (Cert.Spec.lnMM (R := 100000) (V c main_v34) (V c main_v19) (V c main_v20) (V c main_v12) (V c main_v22))
    (fun t _ => flushed_eq V c t) cover

end Cert.KernelIdeal.Region4

end
-- ==== Proof.KI.Region5.lean ====
/-
  Region 5: the array its output window leaves, as one row-wise map of the arrays the region finds at its entry.
-/
import proofs.«417709_j60155311947854_1_alg».proof.Proof.Gen.KernelIdeal.Frame
import proofs.«417709_j60155311947854_1_alg».proof.Proof.KI.Pay

set_option maxRecDepth 16384

noncomputable section

namespace Cert.KernelIdeal.Region5

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole block, however spelt. -/
theorem zero_offsets : (![0, 0] : Fin 2 → Nat) = fun _ => 0 := funext fun a => by fin_cases a <;> rfl

/-- Point t works on block t of the 2000-row tiling of the aggregated features, of the scale column, of the
    residual features and of the result; the bias row is one block. -/
theorem block_index : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- Row p of block t is row t · 2000 + p of the array. -/
def rowOf (t : Fin 50) (p : Fin 2000) : Fin 100000 :=
  ⟨t.val * 2000 + p.val, by have := t.isLt; have := p.isLt; omega⟩

/-- The aggregated block at point t is rows t · 2000 … t · 2000 + 1999 of the aggregated features. -/
theorem aggregated_block (c : Dev nD) (t : Fin cfg5.N) :
    iblk5 V c 0 t = Cert.Spec.pickM (rowOf t) (V c main_v39) := by
  obtain ⟨e0, e1, -⟩ := block_index t
  funext y
  show V c main_v39 (((cfg5.win 0).blk t).view.emb y) = V c main_v39 (ix2 (rowOf t (y 0)) (y 1))
  refine congrArg _ ?_
  funext a; apply Fin.ext
  match a with
  | ⟨0, _⟩ => show win5_0.index t (0 : Fin 2) * 2000 + 1 * (y 0).val = t.val * 2000 + (y 0).val; omega
  | ⟨1, _⟩ => show win5_0.index t (1 : Fin 2) * 128 + 1 * (y 1).val = (y 1).val; omega

/-- The scale block at point t is the same rows of the scale column. -/
theorem scale_block (c : Dev nD) (t : Fin cfg5.N) :
    iblk5 V c 1 t = Cert.Spec.pickC (rowOf t) (V c main_v14) := by
  obtain ⟨-, -, e0, e1, -⟩ := block_index t
  funext y
  show V c main_v14 (((cfg5.win 1).blk t).view.emb y) = V c main_v14 (ix2 (rowOf t (y 0)) (y 1))
  refine congrArg _ ?_
  funext a; apply Fin.ext
  match a with
  | ⟨0, _⟩ => show win5_1.index t (0 : Fin 2) * 2000 + 1 * (y 0).val = t.val * 2000 + (y 0).val; omega
  | ⟨1, _⟩ => show win5_1.index t (1 : Fin 2) * 1 + 1 * (y 1).val = (y 1).val; omega

/-- The bias block at every point is the whole bias row. -/
theorem bias_block (c : Dev nD) (t : Fin cfg5.N) :
    iblk5 V c 2 t = V c main_v16 := by
  obtain ⟨-, -, -, -, e0, e1, -⟩ := block_index t
  funext y
  show V c main_v16 (((cfg5.win 2).blk t).view.emb y) = V c main_v16 y
  refine congrArg _ ?_
  funext a; apply Fin.ext
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- The residual block at point t is the same rows of the input features. -/
theorem residual_block (c : Dev nD) (t : Fin cfg5.N) :
    iblk5 V c 3 t = Cert.Spec.pickM (rowOf t) (V c main_arg2) := by
  obtain ⟨-, -, -, -, -, -, e0, e1, -⟩ := block_index t
  funext y
  show V c main_arg2 (((cfg5.win 3).blk t).view.emb y) = V c main_arg2 (ix2 (rowOf t (y 0)) (y 1))
  refine congrArg _ ?_
  funext a; apply Fin.ext
  match a with
  | ⟨0, _⟩ => show win5_3.index t (0 : Fin 2) * 2000 + 1 * (y 0).val = t.val * 2000 + (y 0).val; omega
  | ⟨1, _⟩ => show win5_3.index t (1 : Fin 2) * 128 + 1 * (y 1).val = (y 1).val; omega

/-- Block t of any matrix over the result's array is its rows t · 2000 … t · 2000 + 1999. -/
theorem result_block (t : Fin cfg5.N) (G : Cert.Spec.Mat 100000) :
    ((cfg5.win 4).blk t).view.read (Elt Ideal) G = Cert.Spec.pickM (rowOf t) G := by
  obtain ⟨-, -, -, -, -, -, -, -, e0, e1⟩ := block_index t
  funext y
  show G (((cfg5.win 4).blk t).view.emb y) = G (ix2 (rowOf t (y 0)) (y 1))
  refine congrArg _ ?_
  funext a; apply Fin.ext
  match a with
  | ⟨0, _⟩ => show win5_4.index t (0 : Fin 2) * 2000 + 1 * (y 0).val = t.val * 2000 + (y 0).val; omega
  | ⟨1, _⟩ => show win5_4.index t (1 : Fin 2) * 128 + 1 * (y 1).val = (y 1).val; omega

/-- What point t writes back is block t of the scaled, shifted aggregate plus the residual of the arrays the region
    finds: the body's store is that map of its blocks, the blocks are rows of the arrays, and the map is row-wise. -/
theorem flushed_eq (c : Dev nD) (t : Fin cfg5.N) :
    (dat5 V c).flushed 4 t = ((cfg5.win 4).blk t).view.read (Elt Ideal)
      (Cert.Spec.post (R := 100000) (V c main_v39) (V c main_v14) (V c main_v16) (V c main_arg2)) := by
  show (cfg5.win 4).cut (grid5.coords t) ((dat5 V c).after 4 t) = _
  rw [after5_4]
  unfold out5_4
  rw [View.canon_unit_zero zero_offsets]
  simp only [View.ld_unit_zero (S := S2000x128) zero_offsets, View.ld_unit_zero (S := S2000x1) zero_offsets,
    View.ld_unit_zero (S := S1x128) zero_offsets]
  rw [Pay.pay5, aggregated_block, scale_block, bias_block, residual_block, result_block, Cert.Spec.post_rows]
  rfl

/-- An index of the result's array is in point t's block iff each coordinate is in the block's range on its axis. -/
theorem mem_blk (t : Fin cfg5.N) (i : S100000x128.Idx) :
    i ∈ ((cfg5.win 4).blk t).view.set ↔ ∀ a : Fin 2, win5_4.index t a * S2000x128.size a ≤ (i a).val ∧ (i a).val < win5_4.index t a * S2000x128.size a + S2000x128.size a := by
  show i ∈ ((View.whole main_v40).slice (win5_4.rect t)).set ↔ _
  rw [View.set_slice_whole, Rect.mem_set_unit]
  exact Iff.rfl

/-- Every index of the result's array is in the block of the point its row falls in. -/
theorem covered (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  let t : Fin cfg5.N := ⟨(i 0).val / 2000, by show _ < 50; omega⟩
  have ht : t.val = (i 0).val / 2000 := rfl
  obtain ⟨-, -, -, -, -, -, -, -, e0, e1⟩ := block_index t
  refine ⟨t, flush5_4 t, ?_⟩
  rw [mem_blk]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 128 ≤ (i 1).val ∧ (i 1).val < win5_4.index t (1 : Fin 2) * 128 + 128; omega

theorem final (c : Dev nD) :
    (dat5 V c).arrAt 4 cfg5.N = Cert.Spec.post (R := 100000) (V c main_v39) (V c main_v14) (V c main_v16) (V c main_arg2) :=
  (dat5 V c).arrAt_eq_of_cover 4 _ (fun t _ => flushed_eq V c t) covered

end Cert.KernelIdeal.Region5

end
-- ==== Proof.KI.Keep.lean ====
/-
  Buffers that nothing overwrites. Between the launch and the return the program's buffers change only where a host
  operation writes its one result or a region writes back its output window; an argument array, and a value computed
  once by the first stretch of host operations, is never written again, so at every later segment boundary it still
  holds what it held first. A region that merely reads an array through an input window leaves it as it found it.
-/
import proofs.«417709_j60155311947854_1_alg».proof.Proof.Gen.KernelIdeal.Frame
import Idealize.ShloMosaic.PureOps.Ideal

set_option maxRecDepth 16384

noncomputable section

namespace Cert.KernelIdeal.Keep

open Cert.KernelIdeal Cert.KernelIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- A stretch of host operations leaves a buffer none of them writes. -/
macro "host_keep " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## One step back at a time: each buffer across each segment it must survive -/

/-- The buffer is no array of the region. -/
theorem arg0_step2 (c : Dev nD) : W2 m ρ c (Proc.devRef .tc main_arg0) = W1 m ρ c (Proc.devRef .tc main_arg0) := W2_of_ne m ρ c main_arg0 (by decide)

/-- No operation of this host stretch writes the buffer. -/
theorem arg0_step1 (c : Dev nD) : W1 m ρ c (Proc.devRef .tc main_arg0) = W0 m ρ c (Proc.devRef .tc main_arg0) := by host_keep hostOps0

/-- At the launch the buffer holds the launch memory's contents. -/
theorem arg0_step0 (c : Dev nD) : W0 m ρ c (Proc.devRef .tc main_arg0) = m ((c : Thread nD τ).loc main_arg0) := rfl

/-- The buffer is no array of the region. -/
theorem arg0_step6 (c : Dev nD) : W6 m ρ c (Proc.devRef .tc main_arg0) = W5 m ρ c (Proc.devRef .tc main_arg0) := W6_of_ne m ρ c main_arg0 (by decide)

/-- The buffer is no array of the region. -/
theorem arg0_step5 (c : Dev nD) : W5 m ρ c (Proc.devRef .tc main_arg0) = W4 m ρ c (Proc.devRef .tc main_arg0) := W5_of_ne m ρ c main_arg0 (by decide)

/-- No operation of this host stretch writes the buffer. -/
theorem arg0_step4 (c : Dev nD) : W4 m ρ c (Proc.devRef .tc main_arg0) = W3 m ρ c (Proc.devRef .tc main_arg0) := by host_keep hostOps1_1

/-- No operation of this host stretch writes the buffer. -/
theorem arg0_step3 (c : Dev nD) : W3 m ρ c (Proc.devRef .tc main_arg0) = W2 m ρ c (Proc.devRef .tc main_arg0) := by host_keep hostOps1

/-- The buffer is no array of the region. -/
theorem arg0_step10 (c : Dev nD) : W10 m ρ c (Proc.devRef .tc main_arg0) = W9 m ρ c (Proc.devRef .tc main_arg0) := W10_of_ne m ρ c main_arg0 (by decide)

/-- The buffer is no array of the region. -/
theorem arg0_step9 (c : Dev nD) : W9 m ρ c (Proc.devRef .tc main_arg0) = W8 m ρ c (Proc.devRef .tc main_arg0) := W9_of_ne m ρ c main_arg0 (by decide)

/-- No operation of this host stretch writes the buffer. -/
theorem arg0_step8 (c : Dev nD) : W8 m ρ c (Proc.devRef .tc main_arg0) = W7 m ρ c (Proc.devRef .tc main_arg0) := by host_keep hostOps3_1

/-- No operation of this host stretch writes the buffer. -/
theorem arg0_step7 (c : Dev nD) : W7 m ρ c (Proc.devRef .tc main_arg0) = W6 m ρ c (Proc.devRef .tc main_arg0) := by host_keep hostOps3

/-- No operation of this host stretch writes the buffer. -/
theorem arg1_step3 (c : Dev nD) : W3 m ρ c (Proc.devRef .tc main_arg1) = W2 m ρ c (Proc.devRef .tc main_arg1) := by host_keep hostOps1

/-- The buffer is no array of the region. -/
theorem arg1_step2 (c : Dev nD) : W2 m ρ c (Proc.devRef .tc main_arg1) = W1 m ρ c (Proc.devRef .tc main_arg1) := W2_of_ne m ρ c main_arg1 (by decide)

/-- No operation of this host stretch writes the buffer. -/
theorem arg1_step1 (c : Dev nD) : W1 m ρ c (Proc.devRef .tc main_arg1) = W0 m ρ c (Proc.devRef .tc main_arg1) := by host_keep hostOps0

/-- At the launch the buffer holds the launch memory's contents. -/
theorem arg1_step0 (c : Dev nD) : W0 m ρ c (Proc.devRef .tc main_arg1) = m ((c : Thread nD τ).loc main_arg1) := rfl

/-- No operation of this host stretch writes the buffer. -/
theorem arg1_step7 (c : Dev nD) : W7 m ρ c (Proc.devRef .tc main_arg1) = W6 m ρ c (Proc.devRef .tc main_arg1) := by host_keep hostOps3

/-- The buffer is no array of the region. -/
theorem arg1_step6 (c : Dev nD) : W6 m ρ c (Proc.devRef .tc main_arg1) = W5 m ρ c (Proc.devRef .tc main_arg1) := W6_of_ne m ρ c main_arg1 (by decide)

/-- The buffer is no array of the region. -/
theorem arg1_step5 (c : Dev nD) : W5 m ρ c (Proc.devRef .tc main_arg1) = W4 m ρ c (Proc.devRef .tc main_arg1) := W5_of_ne m ρ c main_arg1 (by decide)

/-- No operation of this host stretch writes the buffer. -/
theorem arg1_step4 (c : Dev nD) : W4 m ρ c (Proc.devRef .tc main_arg1) = W3 m ρ c (Proc.devRef .tc main_arg1) := by host_keep hostOps1_1

/-- No operation of this host stretch writes the buffer. -/
theorem arg1_step11 (c : Dev nD) : W11 m ρ c (Proc.devRef .tc main_arg1) = W10 m ρ c (Proc.devRef .tc main_arg1) := by host_keep hostOps5

/-- The buffer is no array of the region. -/
theorem arg1_step10 (c : Dev nD) : W10 m ρ c (Proc.devRef .tc main_arg1) = W9 m ρ c (Proc.devRef .tc main_arg1) := W10_of_ne m ρ c main_arg1 (by decide)

/-- The buffer is no array of the region. -/
theorem arg1_step9 (c : Dev nD) : W9 m ρ c (Proc.devRef .tc main_arg1) = W8 m ρ c (Proc.devRef .tc main_arg1) := W9_of_ne m ρ c main_arg1 (by decide)

/-- No operation of this host stretch writes the buffer. -/
theorem arg1_step8 (c : Dev nD) : W8 m ρ c (Proc.devRef .tc main_arg1) = W7 m ρ c (Proc.devRef .tc main_arg1) := by host_keep hostOps3_1

/-- No operation of this host stretch writes the buffer. -/
theorem arg2_step1 (c : Dev nD) : W1 m ρ c (Proc.devRef .tc main_arg2) = W0 m ρ c (Proc.devRef .tc main_arg2) := by host_keep hostOps0

/-- At the launch the buffer holds the launch memory's contents. -/
theorem arg2_step0 (c : Dev nD) : W0 m ρ c (Proc.devRef .tc main_arg2) = m ((c : Thread nD τ).loc main_arg2) := rfl

/-- No operation of this host stretch writes the buffer. -/
theorem arg2_step4 (c : Dev nD) : W4 m ρ c (Proc.devRef .tc main_arg2) = W3 m ρ c (Proc.devRef .tc main_arg2) := by host_keep hostOps1_1

/-- No operation of this host stretch writes the buffer. -/
theorem arg2_step3 (c : Dev nD) : W3 m ρ c (Proc.devRef .tc main_arg2) = W2 m ρ c (Proc.devRef .tc main_arg2) := by host_keep hostOps1

/-- The region reads the buffer through an input window and leaves it as entered. -/
theorem arg2_step2 (c : Dev nD) : W2 m ρ c (Proc.devRef .tc main_arg2) = W1 m ρ c (Proc.devRef .tc main_arg2) :=
  (W2_arr m ρ c 0).trans (((dat0 (V1 m ρ) c).arrAt_in 0 rfl _).trans (A_eq0 (V1 m ρ) c 0))

/-- No operation of this host stretch writes the buffer. -/
theorem arg2_step8 (c : Dev nD) : W8 m ρ c (Proc.devRef .tc main_arg2) = W7 m ρ c (Proc.devRef .tc main_arg2) := by host_keep hostOps3_1

/-- No operation of this host stretch writes the buffer. -/
theorem arg2_step7 (c : Dev nD) : W7 m ρ c (Proc.devRef .tc main_arg2) = W6 m ρ c (Proc.devRef .tc main_arg2) := by host_keep hostOps3

/-- The buffer is no array of the region. -/
theorem arg2_step6 (c : Dev nD) : W6 m ρ c (Proc.devRef .tc main_arg2) = W5 m ρ c (Proc.devRef .tc main_arg2) := W6_of_ne m ρ c main_arg2 (by decide)

/-- The region reads the buffer through an input window and leaves it as entered. -/
theorem arg2_step5 (c : Dev nD) : W5 m ρ c (Proc.devRef .tc main_arg2) = W4 m ρ c (Proc.devRef .tc main_arg2) :=
  (W5_arr m ρ c 3).trans (((dat1 (V4 m ρ) c).arrAt_in 3 rfl _).trans (A_eq1 (V4 m ρ) c 3))

/-- No operation of this host stretch writes the buffer. -/
theorem arg2_step12 (c : Dev nD) : W12 m ρ c (Proc.devRef .tc main_arg2) = W11 m ρ c (Proc.devRef .tc main_arg2) := by host_keep hostOps5_1

/-- No operation of this host stretch writes the buffer. -/
theorem arg2_step11 (c : Dev nD) : W11 m ρ c (Proc.devRef .tc main_arg2) = W10 m ρ c (Proc.devRef .tc main_arg2) := by host_keep hostOps5

/-- The buffer is no array of the region. -/
theorem arg2_step10 (c : Dev nD) : W10 m ρ c (Proc.devRef .tc main_arg2) = W9 m ρ c (Proc.devRef .tc main_arg2) := W10_of_ne m ρ c main_arg2 (by decide)

/-- The region reads the buffer through an input window and leaves it as entered. -/
theorem arg2_step9 (c : Dev nD) : W9 m ρ c (Proc.devRef .tc main_arg2) = W8 m ρ c (Proc.devRef .tc main_arg2) :=
  (W9_arr m ρ c 3).trans (((dat3 (V8 m ρ) c).arrAt_in 3 rfl _).trans (A_eq3 (V8 m ρ) c 3))

/-- The buffer is no array of the region. -/
theorem v12_step5 (c : Dev nD) : W5 m ρ c (Proc.devRef .tc main_v12) = W4 m ρ c (Proc.devRef .tc main_v12) := W5_of_ne m ρ c main_v12 (by decide)

/-- No operation of this host stretch writes the buffer. -/
theorem v12_step4 (c : Dev nD) : W4 m ρ c (Proc.devRef .tc main_v12) = W3 m ρ c (Proc.devRef .tc main_v12) := by host_keep hostOps1_1

/-- No operation of this host stretch writes the buffer. -/
theorem v12_step3 (c : Dev nD) : W3 m ρ c (Proc.devRef .tc main_v12) = W2 m ρ c (Proc.devRef .tc main_v12) := by host_keep hostOps1

/-- The region reads the buffer through an input window and leaves it as entered. -/
theorem v12_step2 (c : Dev nD) : W2 m ρ c (Proc.devRef .tc main_v12) = W1 m ρ c (Proc.devRef .tc main_v12) :=
  (W2_arr m ρ c 1).trans (((dat0 (V1 m ρ) c).arrAt_in 1 rfl _).trans (A_eq0 (V1 m ρ) c 1))

/-- The buffer is no array of the region. -/
theorem v12_step9 (c : Dev nD) : W9 m ρ c (Proc.devRef .tc main_v12) = W8 m ρ c (Proc.devRef .tc main_v12) := W9_of_ne m ρ c main_v12 (by decide)

/-- No operation of this host stretch writes the buffer. -/
theorem v12_step8 (c : Dev nD) : W8 m ρ c (Proc.devRef .tc main_v12) = W7 m ρ c (Proc.devRef .tc main_v12) := by host_keep hostOps3_1

/-- No operation of this host stretch writes the buffer. -/
theorem v12_step7 (c : Dev nD) : W7 m ρ c (Proc.devRef .tc main_v12) = W6 m ρ c (Proc.devRef .tc main_v12) := by host_keep hostOps3

/-- The region reads the buffer through an input window and leaves it as entered. -/
theorem v12_step6 (c : Dev nD) : W6 m ρ c (Proc.devRef .tc main_v12) = W5 m ρ c (Proc.devRef .tc main_v12) :=
  (W6_arr m ρ c 3).trans (((dat2 (V5 m ρ) c).arrAt_in 3 rfl _).trans (A_eq2 (V5 m ρ) c 3))

/-- No operation of this host stretch writes the buffer. -/
theorem v14_step4 (c : Dev nD) : W4 m ρ c (Proc.devRef .tc main_v14) = W3 m ρ c (Proc.devRef .tc main_v14) := by host_keep hostOps1_1

/-- No operation of this host stretch writes the buffer. -/
theorem v14_step3 (c : Dev nD) : W3 m ρ c (Proc.devRef .tc main_v14) = W2 m ρ c (Proc.devRef .tc main_v14) := by host_keep hostOps1

/-- The buffer is no array of the region. -/
theorem v14_step2 (c : Dev nD) : W2 m ρ c (Proc.devRef .tc main_v14) = W1 m ρ c (Proc.devRef .tc main_v14) := W2_of_ne m ρ c main_v14 (by decide)

/-- No operation of this host stretch writes the buffer. -/
theorem v14_step8 (c : Dev nD) : W8 m ρ c (Proc.devRef .tc main_v14) = W7 m ρ c (Proc.devRef .tc main_v14) := by host_keep hostOps3_1

/-- No operation of this host stretch writes the buffer. -/
theorem v14_step7 (c : Dev nD) : W7 m ρ c (Proc.devRef .tc main_v14) = W6 m ρ c (Proc.devRef .tc main_v14) := by host_keep hostOps3

/-- The buffer is no array of the region. -/
theorem v14_step6 (c : Dev nD) : W6 m ρ c (Proc.devRef .tc main_v14) = W5 m ρ c (Proc.devRef .tc main_v14) := W6_of_ne m ρ c main_v14 (by decide)

/-- The region reads the buffer through an input window and leaves it as entered. -/
theorem v14_step5 (c : Dev nD) : W5 m ρ c (Proc.devRef .tc main_v14) = W4 m ρ c (Proc.devRef .tc main_v14) :=
  (W5_arr m ρ c 1).trans (((dat1 (V4 m ρ) c).arrAt_in 1 rfl _).trans (A_eq1 (V4 m ρ) c 1))

/-- No operation of this host stretch writes the buffer. -/
theorem v14_step12 (c : Dev nD) : W12 m ρ c (Proc.devRef .tc main_v14) = W11 m ρ c (Proc.devRef .tc main_v14) := by host_keep hostOps5_1

/-- No operation of this host stretch writes the buffer. -/
theorem v14_step11 (c : Dev nD) : W11 m ρ c (Proc.devRef .tc main_v14) = W10 m ρ c (Proc.devRef .tc main_v14) := by host_keep hostOps5

/-- The buffer is no array of the region. -/
theorem v14_step10 (c : Dev nD) : W10 m ρ c (Proc.devRef .tc main_v14) = W9 m ρ c (Proc.devRef .tc main_v14) := W10_of_ne m ρ c main_v14 (by decide)

/-- The region reads the buffer through an input window and leaves it as entered. -/
theorem v14_step9 (c : Dev nD) : W9 m ρ c (Proc.devRef .tc main_v14) = W8 m ρ c (Proc.devRef .tc main_v14) :=
  (W9_arr m ρ c 1).trans (((dat3 (V8 m ρ) c).arrAt_in 1 rfl _).trans (A_eq3 (V8 m ρ) c 1))

/-- No operation of this host stretch writes the buffer. -/
theorem v15_step4 (c : Dev nD) : W4 m ρ c (Proc.devRef .tc main_v15) = W3 m ρ c (Proc.devRef .tc main_v15) := by host_keep hostOps1_1

/-- No operation of this host stretch writes the buffer. -/
theorem v15_step3 (c : Dev nD) : W3 m ρ c (Proc.devRef .tc main_v15) = W2 m ρ c (Proc.devRef .tc main_v15) := by host_keep hostOps1

/-- The buffer is no array of the region. -/
theorem v15_step2 (c : Dev nD) : W2 m ρ c (Proc.devRef .tc main_v15) = W1 m ρ c (Proc.devRef .tc main_v15) := W2_of_ne m ρ c main_v15 (by decide)

/-- No operation of this host stretch writes the buffer. -/
theorem v16_step8 (c : Dev nD) : W8 m ρ c (Proc.devRef .tc main_v16) = W7 m ρ c (Proc.devRef .tc main_v16) := by host_keep hostOps3_1

/-- No operation of this host stretch writes the buffer. -/
theorem v16_step7 (c : Dev nD) : W7 m ρ c (Proc.devRef .tc main_v16) = W6 m ρ c (Proc.devRef .tc main_v16) := by host_keep hostOps3

/-- The buffer is no array of the region. -/
theorem v16_step6 (c : Dev nD) : W6 m ρ c (Proc.devRef .tc main_v16) = W5 m ρ c (Proc.devRef .tc main_v16) := W6_of_ne m ρ c main_v16 (by decide)

/-- The buffer is no array of the region. -/
theorem v16_step5 (c : Dev nD) : W5 m ρ c (Proc.devRef .tc main_v16) = W4 m ρ c (Proc.devRef .tc main_v16) := W5_of_ne m ρ c main_v16 (by decide)

/-- No operation of this host stretch writes the buffer. -/
theorem v16_step4 (c : Dev nD) : W4 m ρ c (Proc.devRef .tc main_v16) = W3 m ρ c (Proc.devRef .tc main_v16) := by host_keep hostOps1_1

/-- No operation of this host stretch writes the buffer. -/
theorem v16_step3 (c : Dev nD) : W3 m ρ c (Proc.devRef .tc main_v16) = W2 m ρ c (Proc.devRef .tc main_v16) := by host_keep hostOps1

/-- The buffer is no array of the region. -/
theorem v16_step2 (c : Dev nD) : W2 m ρ c (Proc.devRef .tc main_v16) = W1 m ρ c (Proc.devRef .tc main_v16) := W2_of_ne m ρ c main_v16 (by decide)

/-- No operation of this host stretch writes the buffer. -/
theorem v16_step12 (c : Dev nD) : W12 m ρ c (Proc.devRef .tc main_v16) = W11 m ρ c (Proc.devRef .tc main_v16) := by host_keep hostOps5_1

/-- No operation of this host stretch writes the buffer. -/
theorem v16_step11 (c : Dev nD) : W11 m ρ c (Proc.devRef .tc main_v16) = W10 m ρ c (Proc.devRef .tc main_v16) := by host_keep hostOps5

/-- The buffer is no array of the region. -/
theorem v16_step10 (c : Dev nD) : W10 m ρ c (Proc.devRef .tc main_v16) = W9 m ρ c (Proc.devRef .tc main_v16) := W10_of_ne m ρ c main_v16 (by decide)

/-- The region reads the buffer through an input window and leaves it as entered. -/
theorem v16_step9 (c : Dev nD) : W9 m ρ c (Proc.devRef .tc main_v16) = W8 m ρ c (Proc.devRef .tc main_v16) :=
  (W9_arr m ρ c 2).trans (((dat3 (V8 m ρ) c).arrAt_in 2 rfl _).trans (A_eq3 (V8 m ρ) c 2))

/-- The buffer is no array of the region. -/
theorem v17_step5 (c : Dev nD) : W5 m ρ c (Proc.devRef .tc main_v17) = W4 m ρ c (Proc.devRef .tc main_v17) := W5_of_ne m ρ c main_v17 (by decide)

/-- No operation of this host stretch writes the buffer. -/
theorem v17_step4 (c : Dev nD) : W4 m ρ c (Proc.devRef .tc main_v17) = W3 m ρ c (Proc.devRef .tc main_v17) := by host_keep hostOps1_1

/-- No operation of this host stretch writes the buffer. -/
theorem v17_step3 (c : Dev nD) : W3 m ρ c (Proc.devRef .tc main_v17) = W2 m ρ c (Proc.devRef .tc main_v17) := by host_keep hostOps1

/-- The buffer is no array of the region. -/
theorem v17_step2 (c : Dev nD) : W2 m ρ c (Proc.devRef .tc main_v17) = W1 m ρ c (Proc.devRef .tc main_v17) := W2_of_ne m ρ c main_v17 (by decide)

/-- The buffer is no array of the region. -/
theorem v18_step5 (c : Dev nD) : W5 m ρ c (Proc.devRef .tc main_v18) = W4 m ρ c (Proc.devRef .tc main_v18) := W5_of_ne m ρ c main_v18 (by decide)

/-- No operation of this host stretch writes the buffer. -/
theorem v18_step4 (c : Dev nD) : W4 m ρ c (Proc.devRef .tc main_v18) = W3 m ρ c (Proc.devRef .tc main_v18) := by host_keep hostOps1_1

/-- No operation of this host stretch writes the buffer. -/
theorem v18_step3 (c : Dev nD) : W3 m ρ c (Proc.devRef .tc main_v18) = W2 m ρ c (Proc.devRef .tc main_v18) := by host_keep hostOps1

/-- The buffer is no array of the region. -/
theorem v18_step2 (c : Dev nD) : W2 m ρ c (Proc.devRef .tc main_v18) = W1 m ρ c (Proc.devRef .tc main_v18) := W2_of_ne m ρ c main_v18 (by decide)

/-- The buffer is no array of the region. -/
theorem v19_step9 (c : Dev nD) : W9 m ρ c (Proc.devRef .tc main_v19) = W8 m ρ c (Proc.devRef .tc main_v19) := W9_of_ne m ρ c main_v19 (by decide)

/-- No operation of this host stretch writes the buffer. -/
theorem v19_step8 (c : Dev nD) : W8 m ρ c (Proc.devRef .tc main_v19) = W7 m ρ c (Proc.devRef .tc main_v19) := by host_keep hostOps3_1

/-- No operation of this host stretch writes the buffer. -/
theorem v19_step7 (c : Dev nD) : W7 m ρ c (Proc.devRef .tc main_v19) = W6 m ρ c (Proc.devRef .tc main_v19) := by host_keep hostOps3

/-- The buffer is no array of the region. -/
theorem v19_step6 (c : Dev nD) : W6 m ρ c (Proc.devRef .tc main_v19) = W5 m ρ c (Proc.devRef .tc main_v19) := W6_of_ne m ρ c main_v19 (by decide)

/-- The buffer is no array of the region. -/
theorem v19_step5 (c : Dev nD) : W5 m ρ c (Proc.devRef .tc main_v19) = W4 m ρ c (Proc.devRef .tc main_v19) := W5_of_ne m ρ c main_v19 (by decide)

/-- No operation of this host stretch writes the buffer. -/
theorem v19_step4 (c : Dev nD) : W4 m ρ c (Proc.devRef .tc main_v19) = W3 m ρ c (Proc.devRef .tc main_v19) := by host_keep hostOps1_1

/-- No operation of this host stretch writes the buffer. -/
theorem v19_step3 (c : Dev nD) : W3 m ρ c (Proc.devRef .tc main_v19) = W2 m ρ c (Proc.devRef .tc main_v19) := by host_keep hostOps1

/-- The buffer is no array of the region. -/
theorem v19_step2 (c : Dev nD) : W2 m ρ c (Proc.devRef .tc main_v19) = W1 m ρ c (Proc.devRef .tc main_v19) := W2_of_ne m ρ c main_v19 (by decide)

/-- The buffer is no array of the region. -/
theorem v20_step9 (c : Dev nD) : W9 m ρ c (Proc.devRef .tc main_v20) = W8 m ρ c (Proc.devRef .tc main_v20) := W9_of_ne m ρ c main_v20 (by decide)

/-- No operation of this host stretch writes the buffer. -/
theorem v20_step8 (c : Dev nD) : W8 m ρ c (Proc.devRef .tc main_v20) = W7 m ρ c (Proc.devRef .tc main_v20) := by host_keep hostOps3_1

/-- No operation of this host stretch writes the buffer. -/
theorem v20_step7 (c : Dev nD) : W7 m ρ c (Proc.devRef .tc main_v20) = W6 m ρ c (Proc.devRef .tc main_v20) := by host_keep hostOps3

/-- The buffer is no array of the region. -/
theorem v20_step6 (c : Dev nD) : W6 m ρ c (Proc.devRef .tc main_v20) = W5 m ρ c (Proc.devRef .tc main_v20) := W6_of_ne m ρ c main_v20 (by decide)

/-- The buffer is no array of the region. -/
theorem v20_step5 (c : Dev nD) : W5 m ρ c (Proc.devRef .tc main_v20) = W4 m ρ c (Proc.devRef .tc main_v20) := W5_of_ne m ρ c main_v20 (by decide)

/-- No operation of this host stretch writes the buffer. -/
theorem v20_step4 (c : Dev nD) : W4 m ρ c (Proc.devRef .tc main_v20) = W3 m ρ c (Proc.devRef .tc main_v20) := by host_keep hostOps1_1

/-- No operation of this host stretch writes the buffer. -/
theorem v20_step3 (c : Dev nD) : W3 m ρ c (Proc.devRef .tc main_v20) = W2 m ρ c (Proc.devRef .tc main_v20) := by host_keep hostOps1

/-- The buffer is no array of the region. -/
theorem v20_step2 (c : Dev nD) : W2 m ρ c (Proc.devRef .tc main_v20) = W1 m ρ c (Proc.devRef .tc main_v20) := W2_of_ne m ρ c main_v20 (by decide)

/-- The buffer is no array of the region. -/
theorem v22_step5 (c : Dev nD) : W5 m ρ c (Proc.devRef .tc main_v22) = W4 m ρ c (Proc.devRef .tc main_v22) := W5_of_ne m ρ c main_v22 (by decide)

/-- No operation of this host stretch writes the buffer. -/
theorem v22_step4 (c : Dev nD) : W4 m ρ c (Proc.devRef .tc main_v22) = W3 m ρ c (Proc.devRef .tc main_v22) := by host_keep hostOps1_1

/-- No operation of this host stretch writes the buffer. -/
theorem v22_step3 (c : Dev nD) : W3 m ρ c (Proc.devRef .tc main_v22) = W2 m ρ c (Proc.devRef .tc main_v22) := by host_keep hostOps1

/-- The buffer is no array of the region. -/
theorem v22_step2 (c : Dev nD) : W2 m ρ c (Proc.devRef .tc main_v22) = W1 m ρ c (Proc.devRef .tc main_v22) := W2_of_ne m ρ c main_v22 (by decide)

/-- The buffer is no array of the region. -/
theorem v22_step9 (c : Dev nD) : W9 m ρ c (Proc.devRef .tc main_v22) = W8 m ρ c (Proc.devRef .tc main_v22) := W9_of_ne m ρ c main_v22 (by decide)

/-- No operation of this host stretch writes the buffer. -/
theorem v22_step8 (c : Dev nD) : W8 m ρ c (Proc.devRef .tc main_v22) = W7 m ρ c (Proc.devRef .tc main_v22) := by host_keep hostOps3_1

/-- No operation of this host stretch writes the buffer. -/
theorem v22_step7 (c : Dev nD) : W7 m ρ c (Proc.devRef .tc main_v22) = W6 m ρ c (Proc.devRef .tc main_v22) := by host_keep hostOps3

/-- The region reads the buffer through an input window and leaves it as entered. -/
theorem v22_step6 (c : Dev nD) : W6 m ρ c (Proc.devRef .tc main_v22) = W5 m ρ c (Proc.devRef .tc main_v22) :=
  (W6_arr m ρ c 4).trans (((dat2 (V5 m ρ) c).arrAt_in 4 rfl _).trans (A_eq2 (V5 m ρ) c 4))

/-! ## The buffers at the boundaries where a region or a host stretch reads them -/

theorem arg0_W2 (c : Dev nD) : W2 m ρ c (Proc.devRef .tc main_arg0) = m ((c : Thread nD τ).loc main_arg0) := by
  exact (arg0_step2 m ρ c).trans ((arg0_step1 m ρ c).trans (arg0_step0 m ρ c))

theorem arg0_W6 (c : Dev nD) : W6 m ρ c (Proc.devRef .tc main_arg0) = m ((c : Thread nD τ).loc main_arg0) := by
  exact (arg0_step6 m ρ c).trans ((arg0_step5 m ρ c).trans ((arg0_step4 m ρ c).trans ((arg0_step3 m ρ c).trans (arg0_W2 m ρ c))))

theorem arg0_W10 (c : Dev nD) : W10 m ρ c (Proc.devRef .tc main_arg0) = m ((c : Thread nD τ).loc main_arg0) := by
  exact (arg0_step10 m ρ c).trans ((arg0_step9 m ρ c).trans ((arg0_step8 m ρ c).trans ((arg0_step7 m ρ c).trans (arg0_W6 m ρ c))))

theorem arg1_W3 (c : Dev nD) : W3 m ρ c (Proc.devRef .tc main_arg1) = m ((c : Thread nD τ).loc main_arg1) := by
  exact (arg1_step3 m ρ c).trans ((arg1_step2 m ρ c).trans ((arg1_step1 m ρ c).trans (arg1_step0 m ρ c)))

theorem arg1_W7 (c : Dev nD) : W7 m ρ c (Proc.devRef .tc main_arg1) = m ((c : Thread nD τ).loc main_arg1) := by
  exact (arg1_step7 m ρ c).trans ((arg1_step6 m ρ c).trans ((arg1_step5 m ρ c).trans ((arg1_step4 m ρ c).trans (arg1_W3 m ρ c))))

theorem arg1_W11 (c : Dev nD) : W11 m ρ c (Proc.devRef .tc main_arg1) = m ((c : Thread nD τ).loc main_arg1) := by
  exact (arg1_step11 m ρ c).trans ((arg1_step10 m ρ c).trans ((arg1_step9 m ρ c).trans ((arg1_step8 m ρ c).trans (arg1_W7 m ρ c))))

theorem arg2_W1 (c : Dev nD) : W1 m ρ c (Proc.devRef .tc main_arg2) = m ((c : Thread nD τ).loc main_arg2) := by
  exact (arg2_step1 m ρ c).trans (arg2_step0 m ρ c)

theorem arg2_W4 (c : Dev nD) : W4 m ρ c (Proc.devRef .tc main_arg2) = m ((c : Thread nD τ).loc main_arg2) := by
  exact (arg2_step4 m ρ c).trans ((arg2_step3 m ρ c).trans ((arg2_step2 m ρ c).trans (arg2_W1 m ρ c)))

theorem arg2_W8 (c : Dev nD) : W8 m ρ c (Proc.devRef .tc main_arg2) = m ((c : Thread nD τ).loc main_arg2) := by
  exact (arg2_step8 m ρ c).trans ((arg2_step7 m ρ c).trans ((arg2_step6 m ρ c).trans ((arg2_step5 m ρ c).trans (arg2_W4 m ρ c))))

theorem arg2_W12 (c : Dev nD) : W12 m ρ c (Proc.devRef .tc main_arg2) = m ((c : Thread nD τ).loc main_arg2) := by
  exact (arg2_step12 m ρ c).trans ((arg2_step11 m ρ c).trans ((arg2_step10 m ρ c).trans ((arg2_step9 m ρ c).trans (arg2_W8 m ρ c))))

theorem v12_W5 (c : Dev nD) : W5 m ρ c (Proc.devRef .tc main_v12) = W1 m ρ c (Proc.devRef .tc main_v12) := by
  exact (v12_step5 m ρ c).trans ((v12_step4 m ρ c).trans ((v12_step3 m ρ c).trans (v12_step2 m ρ c)))

theorem v12_W9 (c : Dev nD) : W9 m ρ c (Proc.devRef .tc main_v12) = W1 m ρ c (Proc.devRef .tc main_v12) := by
  exact (v12_step9 m ρ c).trans ((v12_step8 m ρ c).trans ((v12_step7 m ρ c).trans ((v12_step6 m ρ c).trans (v12_W5 m ρ c))))

theorem v14_W4 (c : Dev nD) : W4 m ρ c (Proc.devRef .tc main_v14) = W1 m ρ c (Proc.devRef .tc main_v14) := by
  exact (v14_step4 m ρ c).trans ((v14_step3 m ρ c).trans (v14_step2 m ρ c))

theorem v14_W8 (c : Dev nD) : W8 m ρ c (Proc.devRef .tc main_v14) = W1 m ρ c (Proc.devRef .tc main_v14) := by
  exact (v14_step8 m ρ c).trans ((v14_step7 m ρ c).trans ((v14_step6 m ρ c).trans ((v14_step5 m ρ c).trans (v14_W4 m ρ c))))

theorem v14_W12 (c : Dev nD) : W12 m ρ c (Proc.devRef .tc main_v14) = W1 m ρ c (Proc.devRef .tc main_v14) := by
  exact (v14_step12 m ρ c).trans ((v14_step11 m ρ c).trans ((v14_step10 m ρ c).trans ((v14_step9 m ρ c).trans (v14_W8 m ρ c))))

theorem v15_W4 (c : Dev nD) : W4 m ρ c (Proc.devRef .tc main_v15) = W1 m ρ c (Proc.devRef .tc main_v15) := by
  exact (v15_step4 m ρ c).trans ((v15_step3 m ρ c).trans (v15_step2 m ρ c))

theorem v16_W8 (c : Dev nD) : W8 m ρ c (Proc.devRef .tc main_v16) = W1 m ρ c (Proc.devRef .tc main_v16) := by
  exact (v16_step8 m ρ c).trans ((v16_step7 m ρ c).trans ((v16_step6 m ρ c).trans ((v16_step5 m ρ c).trans ((v16_step4 m ρ c).trans ((v16_step3 m ρ c).trans (v16_step2 m ρ c))))))

theorem v16_W12 (c : Dev nD) : W12 m ρ c (Proc.devRef .tc main_v16) = W1 m ρ c (Proc.devRef .tc main_v16) := by
  exact (v16_step12 m ρ c).trans ((v16_step11 m ρ c).trans ((v16_step10 m ρ c).trans ((v16_step9 m ρ c).trans (v16_W8 m ρ c))))

theorem v17_W5 (c : Dev nD) : W5 m ρ c (Proc.devRef .tc main_v17) = W1 m ρ c (Proc.devRef .tc main_v17) := by
  exact (v17_step5 m ρ c).trans ((v17_step4 m ρ c).trans ((v17_step3 m ρ c).trans (v17_step2 m ρ c)))

theorem v18_W5 (c : Dev nD) : W5 m ρ c (Proc.devRef .tc main_v18) = W1 m ρ c (Proc.devRef .tc main_v18) := by
  exact (v18_step5 m ρ c).trans ((v18_step4 m ρ c).trans ((v18_step3 m ρ c).trans (v18_step2 m ρ c)))

theorem v19_W9 (c : Dev nD) : W9 m ρ c (Proc.devRef .tc main_v19) = W1 m ρ c (Proc.devRef .tc main_v19) := by
  exact (v19_step9 m ρ c).trans ((v19_step8 m ρ c).trans ((v19_step7 m ρ c).trans ((v19_step6 m ρ c).trans ((v19_step5 m ρ c).trans ((v19_step4 m ρ c).trans ((v19_step3 m ρ c).trans (v19_step2 m ρ c)))))))

theorem v20_W9 (c : Dev nD) : W9 m ρ c (Proc.devRef .tc main_v20) = W1 m ρ c (Proc.devRef .tc main_v20) := by
  exact (v20_step9 m ρ c).trans ((v20_step8 m ρ c).trans ((v20_step7 m ρ c).trans ((v20_step6 m ρ c).trans ((v20_step5 m ρ c).trans ((v20_step4 m ρ c).trans ((v20_step3 m ρ c).trans (v20_step2 m ρ c)))))))

theorem v22_W5 (c : Dev nD) : W5 m ρ c (Proc.devRef .tc main_v22) = W1 m ρ c (Proc.devRef .tc main_v22) := by
  exact (v22_step5 m ρ c).trans ((v22_step4 m ρ c).trans ((v22_step3 m ρ c).trans (v22_step2 m ρ c)))

theorem v22_W9 (c : Dev nD) : W9 m ρ c (Proc.devRef .tc main_v22) = W1 m ρ c (Proc.devRef .tc main_v22) := by
  exact (v22_step9 m ρ c).trans ((v22_step8 m ρ c).trans ((v22_step7 m ρ c).trans ((v22_step6 m ρ c).trans (v22_W5 m ρ c))))

end Cert.KernelIdeal.Keep

end
-- ==== Proof.KI.Forms.lean ====
/-
  The host side of the kernel's program as plain functions of the argument arrays: the inverse square roots of the
  clipped degrees kept as a column, a parameter vector kept as a row, the weights in the narrower float format (the
  same numbers over the extended reals), and the edge aggregation — gather the rows at the wrapped source indices,
  keep a gathered row where its index is in range (a not-a-number fill elsewhere), add the rows up at the destinations.
-/
import proofs.«417709_j60155311947854_1_alg».proof.KernelIdeal
import Idealize.ShloMosaic.PureOps.Ideal

noncomputable section

namespace Cert.KernelIdeal.Forms

open Cert.KernelIdeal Idealize.ShloMosaic

variable [Cert.KernelIdeal.Facts]
open Cert.KernelIdeal.Facts₀ Cert.KernelIdeal.Facts

/-- The inverse square root of the degree of every node, a degree below one counted as one: the degree of node v is
    the number of edges whose index entry is v. -/
def degVec (idx : IVec S1600000 32) : FVec Ideal S100000 .f32 :=
  Host.rsqrt (F := Ideal) (maximumf
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32)))
    (broadcastInDim S100000 ![] bcast_S_S100000 (constant (F := Ideal) S_ .f32 0x3F800000#32)))

/-- The same, kept as a column. -/
def colK (idx : IVec S1600000 32) : FVec Ideal S100000x1 .f32 :=
  shapeCast S100000x1 (degVec idx) shapeCasts_S100000_S100000x1

/-- A parameter vector kept as a row. -/
def rowK (b : FVec Ideal S128 .f32) : FVec Ideal S1x128 .f32 :=
  shapeCast S1x128 b shapeCasts_S128_S1x128

/-- The weights in the narrower format. -/
def wK (w : FVec Ideal S128x128 .f32) : FVec Ideal S128x128 .bf16 :=
  truncf .bf16 w bitsLt_bf16_f32

/-- The source indices with the negative ones wrapped by the number of nodes, kept as a column. -/
def normIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge: is the wrapped source index inside [0, 99999]? -/
def inRange (src : IVec S1600000 32) : IVec S1600000 1 :=
  Host.reduce IntOp.andi
    (andi (cmpi .sge (normIdx src) (broadcastInDim S1600000x1 ![] bcast_S_S1600000x1 (constantI S_ 32 0#32)))
      (cmpi .sle (normIdx src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows of xw at the wrapped source indices, with no range check. -/
def gatherRows (xw : FVec Ideal S100000x128 .f32) (src : IVec S1600000 32) : FVec Ideal S1600000x128 .f32 :=
  Host.gather gather_S100000x128_S1600000x1_S1600000x128_1_0_n_n_0_1_1128 xw (normIdx src)

/-- The rows of xw at the wrapped source indices; a row whose index is out of range is filled with not-a-number. -/
def takeRows (xw : FVec Ideal S100000x128 .f32) (src : IVec S1600000 32) : FVec Ideal S1600000x128 .f32 :=
  select (broadcastInDim S1600000x128 ![0] bcast_S1600000_S1600000x128_0 (inRange src)) (gatherRows xw src)
    (broadcastInDim S1600000x128 ![] bcast_S_S1600000x128 (constant (F := Ideal) S_ .f32 0x7FC00000#32))

/-- Add the rows up at the destination indices into a zero matrix. -/
def scatterRows (dst : IVec S1600000 32) (rows : FVec Ideal S1600000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst) rows

/-- The kernel program's edge aggregation. -/
def aggK (src dst : IVec S1600000 32) (xw : FVec Ideal S100000x128 .f32) : FVec Ideal S100000x128 .f32 :=
  scatterRows dst (takeRows xw src)

/-- The edge aggregation with no range check. -/
def aggPlain (src dst : IVec S1600000 32) (xw : FVec Ideal S100000x128 .f32) : FVec Ideal S100000x128 .f32 :=
  scatterRows dst (gatherRows xw src)

end Cert.KernelIdeal.Forms

end
-- ==== Proof.KI.HostVals.lean ====
/-
  What the host operations between the regions compute, read off the program: the first stretch builds the degree
  columns, the parameter rows and the narrow-format weights from the arguments; each later pair of stretches gathers
  the rows of the previous region's result at the source indices and adds them up at the destination indices.
-/
import proofs.«417709_j60155311947854_1_alg».proof.Proof.Gen.KernelIdeal.Frame
import proofs.«417709_j60155311947854_1_alg».proof.Proof.KI.Forms
import Idealize.ShloMosaic.Lib.StableHlo.Run

set_option maxRecDepth 16384

noncomputable section

namespace Cert.KernelIdeal.HostVals

open Cert.KernelIdeal Cert.KernelIdeal.Gen Cert.KernelIdeal.Forms
open Idealize.ShloMosaic Idealize.ShloMosaic.TcCoe Idealize.ShloMosaic.Tactic Idealize.SL.Sem

variable (m : (ℓ : Loc nD τ sig) → Buf (Elt Ideal) ℓ) (ρ : Dev nD → PrngReg)

/-- Contents carried to a buffer's own type and back are the contents. -/
theorem ofBuf_toBuf {Val : EltTy → Type} {T : BufTy} (x : StableHlo.TRef sig T) (v : T.Contents Val) :
    x.ofBuf (x.toBuf v) = v := by
  obtain ⟨r, rfl, _, _⟩ := x
  rfl

/-- Contents read at a buffer's own type are the contents at the value's type: the source indices, -/
theorem ofBuf_arg0 (h1 h2 h3) (v : (main_arg0 : Ref sig .tc).ty.Contents (Elt Ideal)) :
    (StableHlo.TRef.of (T := ⟨S1600000, .i32⟩) main_arg0 h1 h2 h3).ofBuf v = v := rfl

/-- the three regions' results that are gathered from, -/
theorem ofBuf_v23 (h1 h2 h3) (v : (main_v23 : Ref sig .tc).ty.Contents (Elt Ideal)) :
    (StableHlo.TRef.of (T := ⟨S100000x128, .f32⟩) main_v23 h1 h2 h3).ofBuf v = v := rfl

theorem ofBuf_v29 (h1 h2 h3) (v : (main_v29 : Ref sig .tc).ty.Contents (Elt Ideal)) :
    (StableHlo.TRef.of (T := ⟨S100000x128, .f32⟩) main_v29 h1 h2 h3).ofBuf v = v := rfl

theorem ofBuf_v35 (h1 h2 h3) (v : (main_v35 : Ref sig .tc).ty.Contents (Elt Ideal)) :
    (StableHlo.TRef.of (T := ⟨S100000x128, .f32⟩) main_v35 h1 h2 h3).ofBuf v = v := rfl

/-- and the three buffers the gathered rows are written to. -/
theorem toBuf_v24 (h1 h2 h3) (v : (⟨S1600000x128, .f32⟩ : BufTy).Contents (Elt Ideal)) :
    (StableHlo.TRef.of (T := ⟨S1600000x128, .f32⟩) main_v24 h1 h2 h3).toBuf v = v := rfl

theorem toBuf_v30 (h1 h2 h3) (v : (⟨S1600000x128, .f32⟩ : BufTy).Contents (Elt Ideal)) :
    (StableHlo.TRef.of (T := ⟨S1600000x128, .f32⟩) main_v30 h1 h2 h3).toBuf v = v := rfl

theorem toBuf_v36 (h1 h2 h3) (v : (⟨S1600000x128, .f32⟩ : BufTy).Contents (Elt Ideal)) :
    (StableHlo.TRef.of (T := ⟨S1600000x128, .f32⟩) main_v36 h1 h2 h3).toBuf v = v := rfl

/-! ## The first stretch: columns, rows and weights from the arguments -/

set_option maxHeartbeats 4000000 in
theorem W1_v12 (c : Dev nD) : W1 m ρ c (Proc.devRef .tc main_v12) = colK (m ((c : Thread nD τ).loc main_arg0)) := by
  show StableHlo.after hostOps0 (W0 m ρ c) (Proc.devRef .tc main_v12) = _
  after_results
  rfl

set_option maxHeartbeats 4000000 in
theorem W1_v14 (c : Dev nD) : W1 m ρ c (Proc.devRef .tc main_v14) = colK (m ((c : Thread nD τ).loc main_arg1)) := by
  show StableHlo.after hostOps0 (W0 m ρ c) (Proc.devRef .tc main_v14) = _
  after_results
  rfl

set_option maxHeartbeats 4000000 in
theorem W1_v15 (c : Dev nD) : W1 m ρ c (Proc.devRef .tc main_v15) = rowK (m ((c : Thread nD τ).loc main_arg4)) := by
  show StableHlo.after hostOps0 (W0 m ρ c) (Proc.devRef .tc main_v15) = _
  after_results
  rfl

set_option maxHeartbeats 4000000 in
theorem W1_v16 (c : Dev nD) : W1 m ρ c (Proc.devRef .tc main_v16) = rowK (m ((c : Thread nD τ).loc main_arg6)) := by
  show StableHlo.after hostOps0 (W0 m ρ c) (Proc.devRef .tc main_v16) = _
  after_results
  rfl

set_option maxHeartbeats 4000000 in
theorem W1_v17 (c : Dev nD) : W1 m ρ c (Proc.devRef .tc main_v17) = rowK (m ((c : Thread nD τ).loc main_arg7)) := by
  show StableHlo.after hostOps0 (W0 m ρ c) (Proc.devRef .tc main_v17) = _
  after_results
  rfl

set_option maxHeartbeats 4000000 in
theorem W1_v18 (c : Dev nD) : W1 m ρ c (Proc.devRef .tc main_v18) = rowK (m ((c : Thread nD τ).loc main_arg8)) := by
  show StableHlo.after hostOps0 (W0 m ρ c) (Proc.devRef .tc main_v18) = _
  after_results
  rfl

set_option maxHeartbeats 4000000 in
theorem W1_v19 (c : Dev nD) : W1 m ρ c (Proc.devRef .tc main_v19) = rowK (m ((c : Thread nD τ).loc main_arg9)) := by
  show StableHlo.after hostOps0 (W0 m ρ c) (Proc.devRef .tc main_v19) = _
  after_results
  rfl

set_option maxHeartbeats 4000000 in
theorem W1_v20 (c : Dev nD) : W1 m ρ c (Proc.devRef .tc main_v20) = rowK (m ((c : Thread nD τ).loc main_arg10)) := by
  show StableHlo.after hostOps0 (W0 m ρ c) (Proc.devRef .tc main_v20) = _
  after_results
  rfl

set_option maxHeartbeats 4000000 in
theorem W1_v21 (c : Dev nD) : W1 m ρ c (Proc.devRef .tc main_v21) = wK (m ((c : Thread nD τ).loc main_arg3)) := by
  show StableHlo.after hostOps0 (W0 m ρ c) (Proc.devRef .tc main_v21) = _
  after_results
  rfl

set_option maxHeartbeats 4000000 in
theorem W1_v22 (c : Dev nD) : W1 m ρ c (Proc.devRef .tc main_v22) = wK (m ((c : Thread nD τ).loc main_arg5)) := by
  show StableHlo.after hostOps0 (W0 m ρ c) (Proc.devRef .tc main_v22) = _
  after_results
  rfl

set_option maxHeartbeats 4000000 in
theorem W1_arg2 (c : Dev nD) : W1 m ρ c (Proc.devRef .tc main_arg2) = m ((c : Thread nD τ).loc main_arg2) := by
  show StableHlo.after hostOps0 (W0 m ρ c) (Proc.devRef .tc main_arg2) = _
  after_results

/-! ## The aggregation after region 0 -/

set_option maxHeartbeats 4000000 in
theorem W3_v24 (c : Dev nD) : W3 m ρ c (Proc.devRef .tc main_v24)
    = takeRows (W2 m ρ c (Proc.devRef .tc main_v23)) (W2 m ρ c (Proc.devRef .tc main_arg0)) := by
  show StableHlo.after hostOps1 (W2 m ρ c) (Proc.devRef .tc main_v24) = _
  after_results
  simp only [ofBuf_toBuf, ofBuf_arg0, ofBuf_v23, toBuf_v24]
  rfl

set_option maxHeartbeats 4000000 in
theorem W4_v27 (c : Dev nD) : W4 m ρ c (Proc.devRef .tc main_v27)
    = scatterRows (W3 m ρ c (Proc.devRef .tc main_arg1)) (W3 m ρ c (Proc.devRef .tc main_v24)) := by
  show StableHlo.after hostOps1_1 (W3 m ρ c) (Proc.devRef .tc main_v27) = _
  after_results
  rfl

/-! ## The aggregation after region 2 -/

set_option maxHeartbeats 4000000 in
theorem W7_v30 (c : Dev nD) : W7 m ρ c (Proc.devRef .tc main_v30)
    = takeRows (W6 m ρ c (Proc.devRef .tc main_v29)) (W6 m ρ c (Proc.devRef .tc main_arg0)) := by
  show StableHlo.after hostOps3 (W6 m ρ c) (Proc.devRef .tc main_v30) = _
  after_results
  simp only [ofBuf_toBuf, ofBuf_arg0, ofBuf_v29, toBuf_v30]
  rfl

set_option maxHeartbeats 4000000 in
theorem W8_v33 (c : Dev nD) : W8 m ρ c (Proc.devRef .tc main_v33)
    = scatterRows (W7 m ρ c (Proc.devRef .tc main_arg1)) (W7 m ρ c (Proc.devRef .tc main_v30)) := by
  show StableHlo.after hostOps3_1 (W7 m ρ c) (Proc.devRef .tc main_v33) = _
  after_results
  rfl

/-! ## The aggregation after region 4 -/

set_option maxHeartbeats 4000000 in
theorem W11_v36 (c : Dev nD) : W11 m ρ c (Proc.devRef .tc main_v36)
    = takeRows (W10 m ρ c (Proc.devRef .tc main_v35)) (W10 m ρ c (Proc.devRef .tc main_arg0)) := by
  show StableHlo.after hostOps5 (W10 m ρ c) (Proc.devRef .tc main_v36) = _
  after_results
  simp only [ofBuf_toBuf, ofBuf_arg0, ofBuf_v35, toBuf_v36]
  rfl

set_option maxHeartbeats 4000000 in
theorem W12_v39 (c : Dev nD) : W12 m ρ c (Proc.devRef .tc main_v39)
    = scatterRows (W11 m ρ c (Proc.devRef .tc main_arg1)) (W11 m ρ c (Proc.devRef .tc main_v36)) := by
  show StableHlo.after hostOps5_1 (W11 m ρ c) (Proc.devRef .tc main_v39) = _
  after_results
  rfl

end Cert.KernelIdeal.HostVals

end
-- ==== Proof.KI.KValue.lean ====
/-
  The kernel program's result as the network of the specification. Going through the program's segments in order:
  region 0 leaves the scaled product of the input features; every following pair of host stretches aggregates the
  previous region's result over the edges; regions 1, 3 and 5 close a convolution (degree scaling, bias, residual);
  regions 2 and 4 normalise, clip, scale and multiply. The degree columns, parameter rows and weights each region
  reads are the ones the first host stretch computed from the arguments, unchanged since.
-/
import proofs.«417709_j60155311947854_1_alg».proof.Proof.KI.Region0
import proofs.«417709_j60155311947854_1_alg».proof.Proof.KI.Region1
import proofs.«417709_j60155311947854_1_alg».proof.Proof.KI.Region2
import proofs.«417709_j60155311947854_1_alg».proof.Proof.KI.Region3
import proofs.«417709_j60155311947854_1_alg».proof.Proof.KI.Region4
import proofs.«417709_j60155311947854_1_alg».proof.Proof.KI.Region5
import proofs.«417709_j60155311947854_1_alg».proof.Proof.KI.Keep
import proofs.«417709_j60155311947854_1_alg».proof.Proof.KI.HostVals

set_option maxRecDepth 16384

noncomputable section

namespace Cert.KernelIdeal.KValue

open Cert.KernelIdeal Cert.KernelIdeal.Gen Cert.KernelIdeal.Forms
open Idealize.ShloMosaic Idealize.ShloMosaic.TcCoe Idealize.ShloMosaic.Tactic Idealize.SL.Sem

variable (m : (ℓ : Loc nD τ sig) → Buf (Elt Ideal) ℓ) (ρ : Dev nD → PrngReg)

/-- The scaled product of the input features: what region 0 leaves. -/
def xw0 (c : Dev nD) : Cert.Spec.Mat 100000 :=
  Cert.Spec.scaleMM (m ((c : Thread nD τ).loc main_arg2)) (colK (m ((c : Thread nD τ).loc main_arg0))) (wK (m ((c : Thread nD τ).loc main_arg3)))

/-- The first convolution's result: what region 1 leaves. -/
def h0 (c : Dev nD) : Cert.Spec.Mat 100000 :=
  Cert.Spec.post (aggK (m ((c : Thread nD τ).loc main_arg0)) (m ((c : Thread nD τ).loc main_arg1)) (xw0 m c)) (colK (m ((c : Thread nD τ).loc main_arg1))) (rowK (m ((c : Thread nD τ).loc main_arg4))) (m ((c : Thread nD τ).loc main_arg2))

/-- What region 2 leaves. -/
def xw1 (c : Dev nD) : Cert.Spec.Mat 100000 :=
  Cert.Spec.lnMM (h0 m c) (rowK (m ((c : Thread nD τ).loc main_arg7))) (rowK (m ((c : Thread nD τ).loc main_arg8))) (colK (m ((c : Thread nD τ).loc main_arg0))) (wK (m ((c : Thread nD τ).loc main_arg5)))

/-- The second convolution's result: what region 3 leaves. -/
def h1 (c : Dev nD) : Cert.Spec.Mat 100000 :=
  Cert.Spec.post (aggK (m ((c : Thread nD τ).loc main_arg0)) (m ((c : Thread nD τ).loc main_arg1)) (xw1 m c)) (colK (m ((c : Thread nD τ).loc main_arg1))) (rowK (m ((c : Thread nD τ).loc main_arg6))) (m ((c : Thread nD τ).loc main_arg2))

/-- What region 4 leaves. -/
def xw2 (c : Dev nD) : Cert.Spec.Mat 100000 :=
  Cert.Spec.lnMM (h1 m c) (rowK (m ((c : Thread nD τ).loc main_arg9))) (rowK (m ((c : Thread nD τ).loc main_arg10))) (colK (m ((c : Thread nD τ).loc main_arg0))) (wK (m ((c : Thread nD τ).loc main_arg5)))

theorem W2_v23 (c : Dev nD) : W2 m ρ c (Proc.devRef .tc main_v23) = xw0 m c := by
  refine (W2_arr m ρ c 3).trans ((Region0.final (V1 m ρ) c).trans ?_)
  show Cert.Spec.scaleMM (W1 m ρ c (Proc.devRef .tc main_arg2)) (W1 m ρ c (Proc.devRef .tc main_v12)) (W1 m ρ c (Proc.devRef .tc main_v21)) = _
  rw [HostVals.W1_arg2, HostVals.W1_v12, HostVals.W1_v21]
  rfl

theorem W4_v27 (c : Dev nD) : W4 m ρ c (Proc.devRef .tc main_v27) = aggK (m ((c : Thread nD τ).loc main_arg0)) (m ((c : Thread nD τ).loc main_arg1)) (xw0 m c) := by
  rw [HostVals.W4_v27, HostVals.W3_v24, Keep.arg1_W3, Keep.arg0_W2, W2_v23]
  rfl

theorem W5_v28 (c : Dev nD) : W5 m ρ c (Proc.devRef .tc main_v28) = h0 m c := by
  refine (W5_arr m ρ c 4).trans ((Region1.final (V4 m ρ) c).trans ?_)
  show Cert.Spec.post (W4 m ρ c (Proc.devRef .tc main_v27)) (W4 m ρ c (Proc.devRef .tc main_v14)) (W4 m ρ c (Proc.devRef .tc main_v15)) (W4 m ρ c (Proc.devRef .tc main_arg2)) = _
  rw [W4_v27, Keep.v14_W4, Keep.v15_W4, Keep.arg2_W4, HostVals.W1_v14, HostVals.W1_v15]
  rfl

theorem W6_v29 (c : Dev nD) : W6 m ρ c (Proc.devRef .tc main_v29) = xw1 m c := by
  refine (W6_arr m ρ c 5).trans ((Region2.final (V5 m ρ) c).trans ?_)
  show Cert.Spec.lnMM (W5 m ρ c (Proc.devRef .tc main_v28)) (W5 m ρ c (Proc.devRef .tc main_v17)) (W5 m ρ c (Proc.devRef .tc main_v18)) (W5 m ρ c (Proc.devRef .tc main_v12)) (W5 m ρ c (Proc.devRef .tc main_v22)) = _
  rw [W5_v28, Keep.v17_W5, Keep.v18_W5, Keep.v12_W5, Keep.v22_W5, HostVals.W1_v17, HostVals.W1_v18, HostVals.W1_v12, HostVals.W1_v22]
  rfl

theorem W8_v33 (c : Dev nD) : W8 m ρ c (Proc.devRef .tc main_v33) = aggK (m ((c : Thread nD τ).loc main_arg0)) (m ((c : Thread nD τ).loc main_arg1)) (xw1 m c) := by
  rw [HostVals.W8_v33, HostVals.W7_v30, Keep.arg1_W7, Keep.arg0_W6, W6_v29]
  rfl

theorem W9_v34 (c : Dev nD) : W9 m ρ c (Proc.devRef .tc main_v34) = h1 m c := by
  refine (W9_arr m ρ c 4).trans ((Region3.final (V8 m ρ) c).trans ?_)
  show Cert.Spec.post (W8 m ρ c (Proc.devRef .tc main_v33)) (W8 m ρ c (Proc.devRef .tc main_v14)) (W8 m ρ c (Proc.devRef .tc main_v16)) (W8 m ρ c (Proc.devRef .tc main_arg2)) = _
  rw [W8_v33, Keep.v14_W8, Keep.v16_W8, Keep.arg2_W8, HostVals.W1_v14, HostVals.W1_v16]
  rfl

theorem W10_v35 (c : Dev nD) : W10 m ρ c (Proc.devRef .tc main_v35) = xw2 m c := by
  refine (W10_arr m ρ c 5).trans ((Region4.final (V9 m ρ) c).trans ?_)
  show Cert.Spec.lnMM (W9 m ρ c (Proc.devRef .tc main_v34)) (W9 m ρ c (Proc.devRef .tc main_v19)) (W9 m ρ c (Proc.devRef .tc main_v20)) (W9 m ρ c (Proc.devRef .tc main_v12)) (W9 m ρ c (Proc.devRef .tc main_v22)) = _
  rw [W9_v34, Keep.v19_W9, Keep.v20_W9, Keep.v12_W9, Keep.v22_W9, HostVals.W1_v19, HostVals.W1_v20, HostVals.W1_v12, HostVals.W1_v22]
  rfl

theorem W12_v39 (c : Dev nD) : W12 m ρ c (Proc.devRef .tc main_v39) = aggK (m ((c : Thread nD τ).loc main_arg0)) (m ((c : Thread nD τ).loc main_arg1)) (xw2 m c) := by
  rw [HostVals.W12_v39, HostVals.W11_v36, Keep.arg1_W11, Keep.arg0_W10, W10_v35]
  rfl

/-- The result buffer at the last boundary is the network of the arguments. -/
theorem result (c : Dev nD) :
    W13 m ρ c (Proc.devRef .tc main_v40)
      = Cert.Spec.gcn (R := 100000) (aggK (m ((c : Thread nD τ).loc main_arg0)) (m ((c : Thread nD τ).loc main_arg1))) (colK (m ((c : Thread nD τ).loc main_arg0))) (colK (m ((c : Thread nD τ).loc main_arg1))) (m ((c : Thread nD τ).loc main_arg2))
          (wK (m ((c : Thread nD τ).loc main_arg3))) (rowK (m ((c : Thread nD τ).loc main_arg4))) (wK (m ((c : Thread nD τ).loc main_arg5))) (rowK (m ((c : Thread nD τ).loc main_arg6))) (rowK (m ((c : Thread nD τ).loc main_arg7))) (rowK (m ((c : Thread nD τ).loc main_arg8)))
          (rowK (m ((c : Thread nD τ).loc main_arg9))) (rowK (m ((c : Thread nD τ).loc main_arg10))) := by
  refine (W13_arr m ρ c 4).trans ((Region5.final (V12 m ρ) c).trans ?_)
  show Cert.Spec.post (W12 m ρ c (Proc.devRef .tc main_v39)) (W12 m ρ c (Proc.devRef .tc main_v14)) (W12 m ρ c (Proc.devRef .tc main_v16)) (W12 m ρ c (Proc.devRef .tc main_arg2)) = _
  rw [W12_v39, Keep.v14_W12, Keep.v16_W12, Keep.arg2_W12, HostVals.W1_v14, HostVals.W1_v16]
  rfl

end Cert.KernelIdeal.KValue

end
-- ==== Proof.KI.Take.lean ====
/-
  Where every source index lies in [0, 100000) the range check of the kernel program's row gather passes on every
  edge, so the gathered rows are kept as they are: the not-a-number fill is never selected.
-/
import proofs.«417709_j60155311947854_1_alg».proof.Proof.KI.Forms
import Idealize.ShloMosaic.Lib.ValueIdx
import Idealize.ShloMosaic.Lib.ReduceAll
import Idealize.ShloMosaic.Lib.StableHlo.Predicate
import Idealize.ShloMosaic.Lib.Pipeline.Value

noncomputable section

namespace Cert.KernelIdeal.Take

open Cert.KernelIdeal Cert.KernelIdeal.Forms Idealize.ShloMosaic Idealize.ShloMosaic.ValueIdx

variable [Cert.KernelIdeal.Facts]
open Cert.KernelIdeal.Facts₀ Cert.KernelIdeal.Facts

/-- A left fold by `and` from 1 over one-bit words that are all 1 is 1. -/
theorem foldl_andi_all_one {ι : Type} (f : ι → BitVec 1) (hf : ∀ n, f n = 1#1) :
    ∀ l : List ι, l.foldl (fun r n => IntOp.andi r (f n)) 1#1 = 1#1
  | [] => rfl
  | a :: l => by
    have e : IntOp.andi (1#1) (1#1) = 1#1 := by decide
    rw [List.foldl_cons, hf a, e]
    exact foldl_andi_all_one f hf l

/-- A reduction by `and` from the initial value 1 of an array whose every element is 1 is 1 at every index. -/
theorem reduce_andi_of_all_one {s t u : Shape} {axes : List (Fin s.rank)} (x : s.Idx → BitVec 1)
    (init : u.Idx → BitVec 1) (hr : s.ReducesTo axes t) (hu : 0 < u.numel)
    (hinit : init (Shape.Idx.first hu) = 1#1) (hx : ∀ i, x i = 1#1) (j : t.Idx) :
    Host.reduce IntOp.andi x init hr hu j = 1#1 := by
  rw [Host.reduce_eq_foldl, hinit]
  exact foldl_andi_all_one x hx _

/-- A word whose signed value is not negative is not below zero. -/
theorem cmpi_slt_zero {w : BitVec 32} (h0 : 0 ≤ w.toInt) : IntOp.cmpi .slt w 0#32 = 0#1 := by
  have hz : (0#32 : BitVec 32).toInt = 0 := by decide
  have hb : w.slt 0#32 = false := by
    simp only [BitVec.slt, hz, decide_eq_false_iff_not]
    omega
  show BitVec.ofBool (w.slt 0#32) = 0#1
  rw [hb]
  rfl

/-- A word whose signed value is not negative is at least zero. -/
theorem cmpi_sge_zero {w : BitVec 32} (h0 : 0 ≤ w.toInt) : IntOp.cmpi .sge w 0#32 = 1#1 := by
  have hz : (0#32 : BitVec 32).toInt = 0 := by decide
  have hb : (0#32 : BitVec 32).sle w = true := by
    simp only [BitVec.sle, hz, decide_eq_true_eq]
    exact h0
  show BitVec.ofBool ((0#32 : BitVec 32).sle w) = 1#1
  rw [hb]
  rfl

/-- A word whose signed value is below 100000 is at most 99999. -/
theorem cmpi_sle_top {w : BitVec 32} (h1 : w.toInt < 100000) : IntOp.cmpi .sle w 99999#32 = 1#1 := by
  have hz : (99999#32 : BitVec 32).toInt = 99999 := by decide
  have hb : w.sle 99999#32 = true := by
    simp only [BitVec.sle, hz, decide_eq_true_eq]
    omega
  show BitVec.ofBool (w.sle 99999#32) = 1#1
  rw [hb]
  rfl

/-- A vector of more than one entry laid along the first axis of a rectangle reads, at `(e, q)`, the vector at `e`. -/
theorem bcastRows_apply {α : Type} {n m : ℕ} (hn : n ≠ 1)
    (hb : (⟨1, ![n]⟩ : Shape).BroadcastsInDim ⟨2, ![n, m]⟩ ![0]) (v : (⟨1, ![n]⟩ : Shape).Idx → α)
    (e : Fin n) (q : Fin m) : broadcastInDim ⟨2, ![n, m]⟩ ![0] hb v (ix2 e q) = v (ix1 e) := by
  refine broadcastInDim_apply _ hb v (ix2 e q) (ix1 e) fun a => ?_
  match a with
  | ⟨0, _⟩ =>
    show e.val = if n = 1 then 0 else e.val
    rw [if_neg hn]

/-- A source index that is not negative is not wrapped: the column of wrapped indices reads it as it is. -/
theorem normIdx_apply (src : IVec S1600000 32) (e : Fin 1600000) (u : Fin 1) (h0 : 0 ≤ (src (ix1 e)).toInt) :
    normIdx src (ix2 e u) = src (ix1 e) := by
  unfold normIdx
  refine (bcastRows_apply (by decide) _ _ e u).trans ?_
  show Scalar.select (IntOp.cmpi .slt (src (ix1 e)) 0#32) (IntOp.addi (src (ix1 e)) 100000#32) (src (ix1 e)) = _
  rw [cmpi_slt_zero h0, select_zero]

/-- Where every source index lies in [0, 100000) the range check passes on every edge. -/
theorem inRange_apply (src : IVec S1600000 32)
    (h : ∀ e : Fin 1600000, 0 ≤ (src (ix1 e)).toInt ∧ (src (ix1 e)).toInt < 100000) (e : Fin 1600000) :
    inRange src (ix1 e) = 1#1 := by
  unfold inRange
  refine reduce_andi_of_all_one _ _ _ _ rfl (fun i => ?_) _
  obtain ⟨e', u, rfl⟩ : ∃ (e' : Fin 1600000) (u : Fin 1), i = ix2 e' u := ⟨i 0, i 1, eq_ix2 i⟩
  show IntOp.andi (IntOp.cmpi .sge (normIdx src (ix2 e' u)) 0#32) (IntOp.cmpi .sle (normIdx src (ix2 e' u)) 99999#32) = 1#1
  rw [normIdx_apply src e' u (h e').1, cmpi_sge_zero (h e').1, cmpi_sle_top (h e').2]
  decide

theorem takeRows_eq (xw : FVec Ideal S100000x128 .f32) (src : IVec S1600000 32)
    (h : ∀ e : Fin 1600000, 0 ≤ (src (ix1 e)).toInt ∧ (src (ix1 e)).toInt < 100000) :
    takeRows xw src = gatherRows xw src := by
  funext j
  obtain ⟨e, q, rfl⟩ : ∃ (e : Fin 1600000) (q : Fin 128), j = ix2 e q := ⟨j 0, j 1, eq_ix2 j⟩
  unfold takeRows
  rw [select_apply, bcastRows_apply (by decide) _ _ e q, inRange_apply src h e, select_one]

theorem aggK_eq (src dst : IVec S1600000 32)
    (h : ∀ e : Fin 1600000, 0 ≤ (src (ix1 e)).toInt ∧ (src (ix1 e)).toInt < 100000) :
    aggK src dst = aggPlain src dst := by
  funext xw
  unfold aggK aggPlain
  rw [takeRows_eq xw src h]

end Cert.KernelIdeal.Take

end
-- ==== Proof.Ref.Generic.lean ====
/-
  The reference's three stages, each as the chain of host operations the program applies, and each chain as the
  specification's row-wise map at 100000 rows: the host matrix product is the sum over the contracted coordinate, a
  host sum along a row is the sum of the row's entries from a zero initial value, a column or a row spread over the
  matrix reads the column's or the row's entry, and every arithmetic operation is the exact one.
-/
import proofs.«417709_j60155311947854_1_alg».proof.Proof.Gen.ReferenceIdeal.Read
import proofs.«417709_j60155311947854_1_alg».proof.Proof.Spec
import proofs.«417709_j60155311947854_1_alg».proof.Proof.LibDot

noncomputable section

namespace Cert.ReferenceIdeal.Generic

open Cert.ReferenceIdeal Cert.ReferenceIdeal.Gen Idealize.ShloMosaic Idealize.ShloMosaic.TcCoe Idealize.SL.Sem Idealize.ShloMosaic.StableHlo Idealize.ShloMosaic.ValueIdx

/-- A column spread across the 128 lanes. -/
abbrev spreadCol (cv : FVec Ideal S100000x1 .f32) : FVec Ideal S100000x128 .f32 :=
  broadcastInDim S100000x128 ![0, 1] bcast_S100000x1_S100000x128_0_1 cv
/-- A row spread down the 100000 rows. -/
abbrev spreadRow (b : FVec Ideal S1x128 .f32) : FVec Ideal S100000x128 .f32 :=
  broadcastInDim S100000x128 ![0, 1] bcast_S1x128_S100000x128_0_1 b
/-- A vector of 100000 entries kept as a column. -/
abbrev asCol (v : FVec Ideal S100000 .f32) : FVec Ideal S100000x1 .f32 :=
  broadcastInDim S100000x1 ![0] bcast_S100000_S100000x1_0 v

/-- The convolution's dense part as the program applies it: scale the rows, multiply by the weights. -/
def convChain (x : FVec Ideal S100000x128 .f32) (cv : FVec Ideal S100000x1 .f32) (w : FVec Ideal S128x128 .f32) : FVec Ideal S100000x128 .f32 :=
  Host.dotGeneral dot_S100000x128_S128x128_S100000x128_1_0_0_1_n_n none (mulf x (spreadCol cv)) w

/-- The convolution's closing part as the program applies it: scale the rows, add the bias, add the residual. -/
def postChain (a : FVec Ideal S100000x128 .f32) (cv : FVec Ideal S100000x1 .f32) (b : FVec Ideal S1x128 .f32) (x : FVec Ideal S100000x128 .f32) : FVec Ideal S100000x128 .f32 :=
  addf (addf (mulf a (spreadCol cv)) (spreadRow b))
    (mulf (broadcastInDim S100000x128 ![] bcast_S_S100000x128 (constant (F := Ideal) S_ .f32 0x3E4CCCCD#32)) x)

/-- The row means as the program computes them, kept as a column. -/
def meanChain (h : FVec Ideal S100000x128 .f32) : FVec Ideal S100000x1 .f32 :=
  Host.divf (asCol (Host.reduceAdd h (constant (F := Ideal) S_ .f32 0x00000000#32) reducesTo_S100000x128_S100000_d1 h_S_))
    (broadcastInDim S100000x1 ![] bcast_S_S100000x1 (constant (F := Ideal) S_ .f32 0x43000000#32))

/-- The deviations from the row means. -/
def devChain (h : FVec Ideal S100000x128 .f32) : FVec Ideal S100000x128 .f32 :=
  subf h (spreadCol (meanChain h))

/-- The inverse standard deviations as the program computes them, kept as a column. -/
def rstdChain (h : FVec Ideal S100000x128 .f32) : FVec Ideal S100000x1 .f32 :=
  Host.rsqrt (addf (Host.divf (asCol (Host.reduceAdd (mulf (devChain h) (devChain h)) (constant (F := Ideal) S_ .f32 0x00000000#32) reducesTo_S100000x128_S100000_d1 h_S_))
      (broadcastInDim S100000x1 ![] bcast_S_S100000x1 (constant (F := Ideal) S_ .f32 0x43000000#32)))
    (broadcastInDim S100000x1 ![] bcast_S_S100000x1 (constant (F := Ideal) S_ .f32 0x3727C5AC#32)))

/-- Layer normalisation, the clip at zero, the row scaling and the matrix product, as the program applies them. -/
def lnChain (h : FVec Ideal S100000x128 .f32) (g l : FVec Ideal S1x128 .f32) (cv : FVec Ideal S100000x1 .f32) (w : FVec Ideal S128x128 .f32) : FVec Ideal S100000x128 .f32 :=
  Host.dotGeneral dot_S100000x128_S128x128_S100000x128_1_0_0_1_n_n none
    (mulf (maximumf (addf (mulf (mulf (devChain h) (spreadCol (rstdChain h))) (spreadRow g)) (spreadRow l))
        (broadcastInDim S100000x128 ![] bcast_S_S100000x128 (constant (F := Ideal) S_ .f32 0x00000000#32)))
      (spreadCol cv)) w

/-! ## Spreads and row sums read at an element -/

/-- A column spread across the lanes reads, at (p, q), the column's entry of row p. -/
theorem spreadCol_apply (cv : FVec Ideal S100000x1 .f32) (p : Fin 100000) (q : Fin 128) :
    spreadCol cv (ix2 p q) = cv (ix2 p (0 : Fin 1)) :=
  broadcastInDim_apply _ bcast_S100000x1_S100000x128_0_1 cv (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A row spread down the rows reads, at (p, q), the row's entry of lane q. -/
theorem spreadRow_apply (b : FVec Ideal S1x128 .f32) (p : Fin 100000) (q : Fin 128) :
    spreadRow b (ix2 p q) = b (ix2 (0 : Fin 1) q) :=
  broadcastInDim_apply _ bcast_S1x128_S100000x128_0_1 b (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- A vector kept as a column reads, at (p, 0), the vector's entry p. -/
theorem asCol_apply (v : FVec Ideal S100000 .f32) (p : Fin 100000) :
    asCol v (ix2 p (0 : Fin 1)) = v (ix1 p) :=
  broadcastInDim_apply _ bcast_S100000_S100000x1_0 v (ix2 p (0 : Fin 1)) (ix1 p) (fun a => match a with
    | ⟨0, _⟩ => by show p.val = if (100000 : Nat) = 1 then 0 else p.val; rw [if_neg (by decide)])

/-- A scalar constant spread over the matrix is that constant at every element. -/
theorem constMat_apply (c : BitVec 32) (j : S100000x128.Idx) :
    broadcastInDim S100000x128 ![] bcast_S_S100000x128 (constant (F := Ideal) S_ .f32 c) j = Ideal.ofBits .f32 c :=
  broadcastInDim_apply _ bcast_S_S100000x128 (constant (F := Ideal) S_ .f32 c) j (fun a => a.elim0) (fun a => a.elim0)

/-- A scalar constant spread over a column is that constant at every element. -/
theorem constCol_apply (c : BitVec 32) (j : S100000x1.Idx) :
    broadcastInDim S100000x1 ![] bcast_S_S100000x1 (constant (F := Ideal) S_ .f32 c) j = Ideal.ofBits .f32 c :=
  broadcastInDim_apply _ bcast_S_S100000x1 (constant (F := Ideal) S_ .f32 c) j (fun a => a.elim0) (fun a => a.elim0)

/-- The host sum along a row from a zero initial value is the sum of the row's 128 entries. -/
theorem rowSum_apply (x : FVec Ideal S100000x128 .f32) (p : Fin 100000) :
    Host.reduceAdd x (constant (F := Ideal) S_ .f32 0x00000000#32) reducesTo_S100000x128_S100000_d1 h_S_ (ix1 p)
      = ∑ k : Fin 128, x (ix2 p k) := by
  show Ideal.hostReduceAdd reducesTo_S100000x128_S100000_d1 x (Ideal.ofBits .f32 0x00000000#32) (ix1 p) = _
  rw [Ideal.hostReduceAdd_single reducesTo_S100000x128_S100000_d1 (by decide), Ideal.ofBits_zero_f32, zero_add]
  refine Finset.sum_congr rfl fun k _ => ?_
  exact congrArg x (funext fun a => Fin.ext (by match a with | ⟨0, _⟩ => rfl | ⟨1, _⟩ => rfl))

/-! ## The layer normalisation's statistics -/

/-- The program's row mean is the specification's. -/
theorem meanChain_apply (h : FVec Ideal S100000x128 .f32) (p : Fin 100000) :
    meanChain h (ix2 p (0 : Fin 1)) = Cert.Spec.rowMean h p := by
  unfold meanChain Cert.Spec.rowMean
  show Ideal.div (asCol _ (ix2 p (0 : Fin 1)))
      (broadcastInDim S100000x1 ![] bcast_S_S100000x1 (constant (F := Ideal) S_ .f32 0x43000000#32) (ix2 p (0 : Fin 1))) = _
  rw [asCol_apply, rowSum_apply, constCol_apply]

/-- The program's deviation is the entry minus the specification's row mean. -/
theorem devChain_apply (h : FVec Ideal S100000x128 .f32) (p : Fin 100000) (k : Fin 128) :
    devChain h (ix2 p k) = h (ix2 p k) - Cert.Spec.rowMean h p := by
  show h (ix2 p k) - spreadCol (meanChain h) (ix2 p k) = _
  rw [spreadCol_apply, meanChain_apply]

/-- The program's inverse standard deviation is the inverse square root of the specification's shifted variance. -/
theorem rstdChain_apply (h : FVec Ideal S100000x128 .f32) (p : Fin 100000) :
    rstdChain h (ix2 p (0 : Fin 1)) = Ideal.rsqrt (Cert.Spec.rowVar h p + Cert.Spec.cEps) := by
  unfold rstdChain Cert.Spec.rowVar
  show Ideal.rsqrt (Ideal.div (asCol _ (ix2 p (0 : Fin 1)))
        (broadcastInDim S100000x1 ![] bcast_S_S100000x1 (constant (F := Ideal) S_ .f32 0x43000000#32) (ix2 p (0 : Fin 1)))
      + broadcastInDim S100000x1 ![] bcast_S_S100000x1 (constant (F := Ideal) S_ .f32 0x3727C5AC#32) (ix2 p (0 : Fin 1))) = _
  rw [asCol_apply, rowSum_apply, constCol_apply, constCol_apply]
  refine congrArg Ideal.rsqrt (congrArg (· + _) (congrArg (Ideal.div · _) (Finset.sum_congr rfl fun k _ => ?_)))
  show devChain h (ix2 p k) * devChain h (ix2 p k) = _
  rw [devChain_apply]

/-! ## The three stages -/

theorem convChain_eq (x : FVec Ideal S100000x128 .f32) (cv : FVec Ideal S100000x1 .f32) (w : FVec Ideal S128x128 .f32) :
    convChain x cv w = Cert.Spec.scaleMM x cv w := by
  funext j
  obtain ⟨p, q, rfl⟩ : ∃ (p : Fin 100000) (q : Fin 128), j = ix2 p q := ⟨j 0, j 1, eq_ix2 j⟩
  unfold convChain
  refine (Cert.Lib.Dot.hostDot_rows_cols _ rfl rfl rfl rfl rfl rfl _ _ p q).trans ?_
  show _ = Cert.Spec.scaleMMAt x cv w p q
  unfold Cert.Spec.scaleMMAt
  refine Finset.sum_congr rfl fun k _ => ?_
  show (x (ix2 p k) * spreadCol cv (ix2 p k)) * w (ix2 k q) = _
  rw [spreadCol_apply]

theorem postChain_eq (a : FVec Ideal S100000x128 .f32) (cv : FVec Ideal S100000x1 .f32) (b : FVec Ideal S1x128 .f32) (x : FVec Ideal S100000x128 .f32) :
    postChain a cv b x = Cert.Spec.post a cv b x := by
  funext j
  obtain ⟨p, q, rfl⟩ : ∃ (p : Fin 100000) (q : Fin 128), j = ix2 p q := ⟨j 0, j 1, eq_ix2 j⟩
  show (a (ix2 p q) * spreadCol cv (ix2 p q) + spreadRow b (ix2 p q))
      + broadcastInDim S100000x128 ![] bcast_S_S100000x128 (constant (F := Ideal) S_ .f32 0x3E4CCCCD#32) (ix2 p q) * x (ix2 p q)
    = Cert.Spec.postAt a cv b x p q
  rw [spreadCol_apply, spreadRow_apply, constMat_apply]
  rfl

theorem lnChain_eq (h : FVec Ideal S100000x128 .f32) (g l : FVec Ideal S1x128 .f32) (cv : FVec Ideal S100000x1 .f32) (w : FVec Ideal S128x128 .f32) :
    lnChain h g l cv w = Cert.Spec.lnMM h g l cv w := by
  funext j
  obtain ⟨p, q, rfl⟩ : ∃ (p : Fin 100000) (q : Fin 128), j = ix2 p q := ⟨j 0, j 1, eq_ix2 j⟩
  unfold lnChain
  refine (Cert.Lib.Dot.hostDot_rows_cols _ rfl rfl rfl rfl rfl rfl _ _ p q).trans ?_
  show _ = Cert.Spec.lnMMAt h g l cv w p q
  unfold Cert.Spec.lnMMAt Cert.Spec.lnReluAt
  refine Finset.sum_congr rfl fun k _ => ?_
  show (max (((devChain h (ix2 p k) * spreadCol (rstdChain h) (ix2 p k)) * spreadRow g (ix2 p k)) + spreadRow l (ix2 p k))
        (broadcastInDim S100000x128 ![] bcast_S_S100000x128 (constant (F := Ideal) S_ .f32 0x00000000#32) (ix2 p k))
      * spreadCol cv (ix2 p k)) * w (ix2 k q) = _
  rw [devChain_apply, spreadCol_apply, rstdChain_apply, spreadRow_apply, spreadRow_apply, constMat_apply, spreadCol_apply]

end Cert.ReferenceIdeal.Generic

end
-- ==== Proof.Ref.Value.lean ====
/-
  The reference's result is the network of the specification: its 199 host operations are three rounds of the same
  three stages around the edge aggregation, the degree columns and the parameter rows recomputed identically in
  every round.
-/
import proofs.«417709_j60155311947854_1_alg».proof.Proof.Ref.Generic

noncomputable section

namespace Cert.ReferenceIdeal.RefValue

open Cert.ReferenceIdeal Cert.ReferenceIdeal.Gen Cert.ReferenceIdeal.Read Cert.ReferenceIdeal.Generic
open Idealize.ShloMosaic Idealize.ShloMosaic.TcCoe Idealize.SL.Sem Idealize.ShloMosaic.StableHlo

/-- The edge aggregation as the reference applies it: gather the rows at the (wrapped) source indices, add them up
    at the destination indices into a zero matrix. -/
def aggR (x0 x1 : (⟨S1600000, .i32⟩ : BufTy).Contents (Elt Ideal)) (xw : (⟨S100000x128, .f32⟩ : BufTy).Contents (Elt Ideal)) : (⟨S100000x128, .f32⟩ : BufTy).Contents (Elt Ideal) :=
  Host.scatterAdd (F := Ideal) (φ := .f32) scatter_S100000x128_S1600000x1_S1600000x128_1_0_0_1 (val_main_v23 (F := Ideal)) (val_main_v24 (F := Ideal) x1)
    (Host.gather gather_S100000x128_S1600000x1_S1600000x128_1_0_n_n_0_1_1128 xw (val_main_v21 (F := Ideal) x0))

/-! ## The recomputed columns, rows and index arrays are the first ones -/

/-- The out-degree column of the second round is that of the first. -/
theorem v73_eq (x0 : (⟨S1600000, .i32⟩ : BufTy).Contents (Elt Ideal)) : val_main_v73 (F := Ideal) x0 = val_main_v12 (F := Ideal) x0 := by
  unfold val_main_v73 val_main_v72 val_main_v66 val_main_v65 val_main_v64 val_main_v63 val_main_v62 val_main_v61
    val_main_cst_12 val_main_cst_13 val_main_cst_14
    val_main_v12 val_main_v11 val_main_v5 val_main_v4 val_main_v3 val_main_v2 val_main_v1 val_main_v0
    val_main_cst val_main_cst_0 val_main_cst_1
  rfl

/-- The out-degree column of the third round is that of the first. -/
theorem v134_eq (x0 : (⟨S1600000, .i32⟩ : BufTy).Contents (Elt Ideal)) : val_main_v134 (F := Ideal) x0 = val_main_v12 (F := Ideal) x0 := by
  unfold val_main_v134 val_main_v133 val_main_v127 val_main_v126 val_main_v125 val_main_v124 val_main_v123 val_main_v122
    val_main_cst_26 val_main_cst_27 val_main_cst_28
    val_main_v12 val_main_v11 val_main_v5 val_main_v4 val_main_v3 val_main_v2 val_main_v1 val_main_v0
    val_main_cst val_main_cst_0 val_main_cst_1
  rfl

/-- The in-degree column of the second round is that of the first. -/
theorem v88_eq (x1 : (⟨S1600000, .i32⟩ : BufTy).Contents (Elt Ideal)) : val_main_v88 (F := Ideal) x1 = val_main_v27 (F := Ideal) x1 := by
  unfold val_main_v88 val_main_v87 val_main_v71 val_main_v70 val_main_v69 val_main_v68 val_main_v67 val_main_v61
    val_main_cst_12 val_main_cst_15 val_main_cst_16
    val_main_v27 val_main_v26 val_main_v10 val_main_v9 val_main_v8 val_main_v7 val_main_v6 val_main_v0
    val_main_cst val_main_cst_2 val_main_cst_3
  rfl

/-- The in-degree column of the third round is that of the first. -/
theorem v149_eq (x1 : (⟨S1600000, .i32⟩ : BufTy).Contents (Elt Ideal)) : val_main_v149 (F := Ideal) x1 = val_main_v27 (F := Ideal) x1 := by
  unfold val_main_v149 val_main_v148 val_main_v132 val_main_v131 val_main_v130 val_main_v129 val_main_v128 val_main_v122
    val_main_cst_26 val_main_cst_29 val_main_cst_30
    val_main_v27 val_main_v26 val_main_v10 val_main_v9 val_main_v8 val_main_v7 val_main_v6 val_main_v0
    val_main_cst val_main_cst_2 val_main_cst_3
  rfl

/-- The bias row of the third round is that of the second. -/
theorem v152_eq (x6 : (⟨S128, .f32⟩ : BufTy).Contents (Elt Ideal)) : val_main_v152 (F := Ideal) x6 = val_main_v91 (F := Ideal) x6 := rfl

/-- The wrapped source indices of the second round are those of the first. -/
theorem v82_eq (x0 : (⟨S1600000, .i32⟩ : BufTy).Contents (Elt Ideal)) : val_main_v82 (F := Ideal) x0 = val_main_v21 (F := Ideal) x0 := by
  unfold val_main_v82 val_main_v81 val_main_v80 val_main_v79 val_main_v78 val_main_v77 val_main_c_17 val_main_c_18
    val_main_v21 val_main_v20 val_main_v19 val_main_v18 val_main_v17 val_main_v16 val_main_c val_main_c_4
  rfl

/-- The wrapped source indices of the third round are those of the first. -/
theorem v143_eq (x0 : (⟨S1600000, .i32⟩ : BufTy).Contents (Elt Ideal)) : val_main_v143 (F := Ideal) x0 = val_main_v21 (F := Ideal) x0 := by
  unfold val_main_v143 val_main_v142 val_main_v141 val_main_v140 val_main_v139 val_main_v138 val_main_c_31 val_main_c_32
    val_main_v21 val_main_v20 val_main_v19 val_main_v18 val_main_v17 val_main_v16 val_main_c val_main_c_4
  rfl

/-- The zero matrix of the second round is that of the first. -/
theorem v84_eq : val_main_v84 (F := Ideal) = val_main_v23 (F := Ideal) := rfl

/-- The zero matrix of the third round is that of the first. -/
theorem v145_eq : val_main_v145 (F := Ideal) = val_main_v23 (F := Ideal) := rfl

/-- The destination indices of the second round are those of the first. -/
theorem v85_eq (x1 : (⟨S1600000, .i32⟩ : BufTy).Contents (Elt Ideal)) : val_main_v85 (F := Ideal) x1 = val_main_v24 (F := Ideal) x1 := rfl

/-- The destination indices of the third round are those of the first. -/
theorem v146_eq (x1 : (⟨S1600000, .i32⟩ : BufTy).Contents (Elt Ideal)) : val_main_v146 (F := Ideal) x1 = val_main_v24 (F := Ideal) x1 := rfl

/-! ## The first round -/

/-- Scaling the input rows by the out-degree column and multiplying by the first weights is the convolution chain. -/
theorem stage15 (x0 : (⟨S1600000, .i32⟩ : BufTy).Contents (Elt Ideal)) (x2 : (⟨S100000x128, .f32⟩ : BufTy).Contents (Elt Ideal)) (x3 : (⟨S128x128, .f32⟩ : BufTy).Contents (Elt Ideal)) :
    val_main_v15 (F := Ideal) x0 x2 x3 = convChain x2 (val_main_v12 (F := Ideal) x0) x3 := by
  unfold val_main_v15 val_main_v14 val_main_v13 convChain
  rfl

/-- Gathering the rows and adding them up at the destinations is the aggregation. -/
theorem stage25 (x0 : (⟨S1600000, .i32⟩ : BufTy).Contents (Elt Ideal)) (x1 : (⟨S1600000, .i32⟩ : BufTy).Contents (Elt Ideal)) (x2 : (⟨S100000x128, .f32⟩ : BufTy).Contents (Elt Ideal)) (x3 : (⟨S128x128, .f32⟩ : BufTy).Contents (Elt Ideal)) :
    val_main_v25 (F := Ideal) x0 x1 x2 x3 = aggR x0 x1 (val_main_v15 (F := Ideal) x0 x2 x3) := by
  unfold val_main_v25 val_main_v22 aggR
  rfl

/-- Scaling by the in-degree column, adding the bias row and the residual is the closing chain. -/
theorem stage35 (x0 : (⟨S1600000, .i32⟩ : BufTy).Contents (Elt Ideal)) (x1 : (⟨S1600000, .i32⟩ : BufTy).Contents (Elt Ideal)) (x2 : (⟨S100000x128, .f32⟩ : BufTy).Contents (Elt Ideal)) (x3 : (⟨S128x128, .f32⟩ : BufTy).Contents (Elt Ideal)) (x4 : (⟨S128, .f32⟩ : BufTy).Contents (Elt Ideal)) :
    val_main_v35 (F := Ideal) x0 x1 x2 x3 x4 = postChain (val_main_v25 (F := Ideal) x0 x1 x2 x3) (val_main_v27 (F := Ideal) x1) (val_main_v30 (F := Ideal) x4) x2 := by
  unfold val_main_v35 val_main_v34 val_main_v33 val_main_cst_6 val_main_v32 val_main_v31 val_main_v29 val_main_v28 postChain
  rfl

/-- The first layer normalisation, clip, row scaling and product is the normalisation chain. -/
theorem stage76 (x0 : (⟨S1600000, .i32⟩ : BufTy).Contents (Elt Ideal)) (x1 : (⟨S1600000, .i32⟩ : BufTy).Contents (Elt Ideal)) (x2 : (⟨S100000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x7 : (⟨S128, .f32⟩ : BufTy).Contents (Elt Ideal)) (x8 : (⟨S128, .f32⟩ : BufTy).Contents (Elt Ideal)) :
    val_main_v76 (F := Ideal) x0 x1 x2 x3 x4 x5 x7 x8 = lnChain (val_main_v35 (F := Ideal) x0 x1 x2 x3 x4) (val_main_v54 (F := Ideal) x7) (val_main_v57 (F := Ideal) x8) (val_main_v73 (F := Ideal) x0) x5 := by
  unfold val_main_v76 val_main_v75 val_main_v74 val_main_v60 val_main_call0_v0 val_main_call0_cst val_main_v59 val_main_v58
    val_main_v56 val_main_v55 val_main_v53 val_main_v52 val_main_v51 val_main_v50 val_main_v49 val_main_cst_11
    val_main_v48 val_main_v47 val_main_v46 val_main_v45 val_main_cst_10 val_main_v44 val_main_v43 val_main_cst_9
    val_main_v42 val_main_v41 val_main_v40 val_main_v39 val_main_v38 val_main_cst_8 val_main_v37 val_main_v36 val_main_cst_7
    lnChain rstdChain devChain meanChain
  rfl

/-! ## The second round -/

/-- The second aggregation, its index arrays and zero matrix being those of the first. -/
theorem stage86 (x0 : (⟨S1600000, .i32⟩ : BufTy).Contents (Elt Ideal)) (x1 : (⟨S1600000, .i32⟩ : BufTy).Contents (Elt Ideal)) (x2 : (⟨S100000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x7 : (⟨S128, .f32⟩ : BufTy).Contents (Elt Ideal)) (x8 : (⟨S128, .f32⟩ : BufTy).Contents (Elt Ideal)) :
    val_main_v86 (F := Ideal) x0 x1 x2 x3 x4 x5 x7 x8 = aggR x0 x1 (val_main_v76 (F := Ideal) x0 x1 x2 x3 x4 x5 x7 x8) := by
  unfold val_main_v86 val_main_v83 aggR
  rw [v82_eq, v84_eq, v85_eq]

/-- The second closing chain, with the second bias row. -/
theorem stage96 (x0 : (⟨S1600000, .i32⟩ : BufTy).Contents (Elt Ideal)) (x1 : (⟨S1600000, .i32⟩ : BufTy).Contents (Elt Ideal)) (x2 : (⟨S100000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) :
    val_main_v96 (F := Ideal) x0 x1 x2 x3 x4 x5 x6 x7 x8 = postChain (val_main_v86 (F := Ideal) x0 x1 x2 x3 x4 x5 x7 x8) (val_main_v88 (F := Ideal) x1) (val_main_v91 (F := Ideal) x6) x2 := by
  unfold val_main_v96 val_main_v95 val_main_v94 val_main_cst_20 val_main_v93 val_main_v92 val_main_v90 val_main_v89 postChain
  rfl

/-- The second layer normalisation, clip, row scaling and product is the normalisation chain. -/
theorem stage137 (x0 : (⟨S1600000, .i32⟩ : BufTy).Contents (Elt Ideal)) (x1 : (⟨S1600000, .i32⟩ : BufTy).Contents (Elt Ideal)) (x2 : (⟨S100000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) :
    val_main_v137 (F := Ideal) x0 x1 x2 x3 x4 x5 x6 x7 x8 x9 x10 = lnChain (val_main_v96 (F := Ideal) x0 x1 x2 x3 x4 x5 x6 x7 x8) (val_main_v115 (F := Ideal) x9) (val_main_v118 (F := Ideal) x10) (val_main_v134 (F := Ideal) x0) x5 := by
  unfold val_main_v137 val_main_v136 val_main_v135 val_main_v121 val_main_call1_v0 val_main_call1_cst val_main_v120 val_main_v119
    val_main_v117 val_main_v116 val_main_v114 val_main_v113 val_main_v112 val_main_v111 val_main_v110 val_main_cst_25
    val_main_v109 val_main_v108 val_main_v107 val_main_v106 val_main_cst_24 val_main_v105 val_main_v104 val_main_cst_23
    val_main_v103 val_main_v102 val_main_v101 val_main_v100 val_main_v99 val_main_cst_22 val_main_v98 val_main_v97 val_main_cst_21
    lnChain rstdChain devChain meanChain
  rfl

/-! ## The third round -/

/-- The third aggregation, its index arrays and zero matrix being those of the first. -/
theorem stage147 (x0 : (⟨S1600000, .i32⟩ : BufTy).Contents (Elt Ideal)) (x1 : (⟨S1600000, .i32⟩ : BufTy).Contents (Elt Ideal)) (x2 : (⟨S100000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) :
    val_main_v147 (F := Ideal) x0 x1 x2 x3 x4 x5 x6 x7 x8 x9 x10 = aggR x0 x1 (val_main_v137 (F := Ideal) x0 x1 x2 x3 x4 x5 x6 x7 x8 x9 x10) := by
  unfold val_main_v147 val_main_v144 aggR
  rw [v143_eq, v145_eq, v146_eq]

/-- The third closing chain. -/
theorem stage157 (x0 : (⟨S1600000, .i32⟩ : BufTy).Contents (Elt Ideal)) (x1 : (⟨S1600000, .i32⟩ : BufTy).Contents (Elt Ideal)) (x2 : (⟨S100000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) :
    val_main_v157 (F := Ideal) x0 x1 x2 x3 x4 x5 x6 x7 x8 x9 x10 = postChain (val_main_v147 (F := Ideal) x0 x1 x2 x3 x4 x5 x6 x7 x8 x9 x10) (val_main_v149 (F := Ideal) x1) (val_main_v152 (F := Ideal) x6) x2 := by
  unfold val_main_v157 val_main_v156 val_main_v155 val_main_cst_34 val_main_v154 val_main_v153 val_main_v151 val_main_v150 postChain
  rfl

/-! ## The whole program -/

theorem value (x0 x1 : (⟨S1600000, .i32⟩ : BufTy).Contents (Elt Ideal)) (x2 : (⟨S100000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 x7 x8 x9 x10 : (⟨S128, .f32⟩ : BufTy).Contents (Elt Ideal)) :
    val_main_v157 (F := Ideal) x0 x1 x2 x3 x4 x5 x6 x7 x8 x9 x10
      = Cert.Spec.gcn (R := 100000) (aggR x0 x1) (val_main_v12 (F := Ideal) x0) (val_main_v27 (F := Ideal) x1) x2 x3 (val_main_v30 (F := Ideal) x4) x5
          (val_main_v91 (F := Ideal) x6) (val_main_v54 (F := Ideal) x7) (val_main_v57 (F := Ideal) x8) (val_main_v115 (F := Ideal) x9) (val_main_v118 (F := Ideal) x10) := by
  unfold Cert.Spec.gcn
  rw [stage157, stage147, stage137, stage96, stage86, stage76, stage35, stage25, stage15,
    v149_eq, v152_eq, v134_eq, v88_eq, v73_eq]
  simp only [postChain_eq, lnChain_eq, convChain_eq]

end Cert.ReferenceIdeal.RefValue

end
-- ==== Proof.Glue.lean ====
/-
  The two programs' host-side pieces are the same functions: a vector kept as a column by a reshape or by a
  broadcast reads the same entry, a vector kept as a row likewise, the weights in the narrower format are the same
  extended reals, and the edge aggregation with no range check is the reference's.
-/
import proofs.«417709_j60155311947854_1_alg».proof.Proof.KI.Forms
import proofs.«417709_j60155311947854_1_alg».proof.Proof.Ref.Value
import Idealize.ShloMosaic.Lib.ValueIdx
import Idealize.ShloMosaic.Lib.Pipeline.Value

noncomputable section

namespace Cert.Glue

open Idealize.ShloMosaic Idealize.ShloMosaic.ValueIdx

variable [Cert.KernelIdeal.Facts] [Cert.ReferenceIdeal.Facts]

/-- The clipped inverse square root degree vector of the kernel's program is the reference's, at the first index array's
    stages: the same operations on the same shapes. -/
theorem deg_out (idx : IVec (⟨1, ![1600000]⟩ : Shape) 32) :
    Cert.KernelIdeal.Forms.degVec idx = Cert.ReferenceIdeal.Read.val_main_v11 (F := Ideal) idx := by
  unfold Cert.KernelIdeal.Forms.degVec Cert.ReferenceIdeal.Read.val_main_v11 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_cst_0 Cert.ReferenceIdeal.Read.val_main_cst_1
  rfl

/-- The same at the second index array's stages. -/
theorem deg_in (idx : IVec (⟨1, ![1600000]⟩ : Shape) 32) :
    Cert.KernelIdeal.Forms.degVec idx = Cert.ReferenceIdeal.Read.val_main_v26 (F := Ideal) idx := by
  unfold Cert.KernelIdeal.Forms.degVec Cert.ReferenceIdeal.Read.val_main_v26 Cert.ReferenceIdeal.Read.val_main_v10
    Cert.ReferenceIdeal.Read.val_main_v9 Cert.ReferenceIdeal.Read.val_main_v8 Cert.ReferenceIdeal.Read.val_main_v7
    Cert.ReferenceIdeal.Read.val_main_v6 Cert.ReferenceIdeal.Read.val_main_v0 Cert.ReferenceIdeal.Read.val_main_cst
    Cert.ReferenceIdeal.Read.val_main_cst_2 Cert.ReferenceIdeal.Read.val_main_cst_3
  rfl

/-- A vector of 100000 entries reshaped to a column reads, at row p, the vector's entry p. -/
theorem colCast_apply (v : FVec Ideal (⟨1, ![100000]⟩ : Shape) .f32) (h : (⟨1, ![100000]⟩ : Shape).ShapeCasts (⟨2, ![100000, 1]⟩ : Shape))
    (j : (⟨2, ![100000, 1]⟩ : Shape).Idx) :
    shapeCast (⟨2, ![100000, 1]⟩ : Shape) v h j = v (Cert.ReferenceIdeal.Read.idx_main_v12 j) := by
  refine shapeCast_apply v h j _ ?_
  rw [Shape.rowMajor_val_one, Shape.rowMajor_val_two]
  have h1 : (j 1).val < 1 := (j 1).isLt
  show (j 0).val = (j 0).val * 1 + (j 1).val
  omega

/-- A vector of 128 entries reshaped to a row reads, at lane q, the vector's entry q. -/
theorem rowCast_apply (v : FVec Ideal (⟨1, ![128]⟩ : Shape) .f32) (h : (⟨1, ![128]⟩ : Shape).ShapeCasts (⟨2, ![1, 128]⟩ : Shape))
    (j : (⟨2, ![1, 128]⟩ : Shape).Idx) :
    shapeCast (⟨2, ![1, 128]⟩ : Shape) v h j = v (Cert.ReferenceIdeal.Read.idx_main_v30 j) := by
  refine shapeCast_apply v h j _ ?_
  rw [Shape.rowMajor_val_one, Shape.rowMajor_val_two]
  have h0 : (j 0).val < 1 := (j 0).isLt
  show (j 1).val = (j 0).val * 128 + (j 1).val
  omega

/-- The out-degree column: the kernel program's reshape of the vector is the reference's broadcast of it. -/
theorem col_out (idx : IVec (⟨1, ![1600000]⟩ : Shape) 32) :
    Cert.KernelIdeal.Forms.colK idx = Cert.ReferenceIdeal.Read.val_main_v12 (F := Ideal) idx := by
  funext j
  rw [Cert.ReferenceIdeal.Read.val_main_v12_apply, ← deg_out]
  exact colCast_apply _ _ j

/-- The in-degree column likewise. -/
theorem col_in (idx : IVec (⟨1, ![1600000]⟩ : Shape) 32) :
    Cert.KernelIdeal.Forms.colK idx = Cert.ReferenceIdeal.Read.val_main_v27 (F := Ideal) idx := by
  funext j
  rw [Cert.ReferenceIdeal.Read.val_main_v27_apply, ← deg_in]
  exact colCast_apply _ _ j

/-- A parameter vector kept as a row: the reshape is the broadcast. -/
theorem row_eq (b : FVec Ideal (⟨1, ![128]⟩ : Shape) .f32) :
    Cert.KernelIdeal.Forms.rowK b = Cert.ReferenceIdeal.Read.val_main_v30 (F := Ideal) b := by
  funext j
  rw [Cert.ReferenceIdeal.Read.val_main_v30_apply]
  exact rowCast_apply _ _ j

/-- The weights in the narrower format are the weights. -/
theorem w_eq (w : FVec Ideal (⟨2, ![128, 128]⟩ : Shape) .f32) : Cert.KernelIdeal.Forms.wK w = w := rfl

/-- The edge aggregation with no range check is the reference's. -/
theorem agg_eq (src dst : IVec (⟨1, ![1600000]⟩ : Shape) 32) :
    Cert.KernelIdeal.Forms.aggPlain src dst = Cert.ReferenceIdeal.RefValue.aggR src dst := by
  funext xw
  unfold Cert.KernelIdeal.Forms.aggPlain Cert.KernelIdeal.Forms.scatterRows Cert.KernelIdeal.Forms.gatherRows
    Cert.KernelIdeal.Forms.normIdx Cert.ReferenceIdeal.RefValue.aggR
    Cert.ReferenceIdeal.Read.val_main_v23 Cert.ReferenceIdeal.Read.val_main_cst_5 Cert.ReferenceIdeal.Read.val_main_v24
    Cert.ReferenceIdeal.Read.val_main_v21 Cert.ReferenceIdeal.Read.val_main_v20 Cert.ReferenceIdeal.Read.val_main_v19
    Cert.ReferenceIdeal.Read.val_main_v18 Cert.ReferenceIdeal.Read.val_main_c_4 Cert.ReferenceIdeal.Read.val_main_v17
    Cert.ReferenceIdeal.Read.val_main_v16 Cert.ReferenceIdeal.Read.val_main_c
  rfl

end Cert.Glue

end
-- ==== Proof.PreDecode.lean ====
/-
  What the precondition says of the source indices: every one of the 1600000 edge sources lies in [0, 100000).
  The printed predicate is a conjunction of "all" reductions; its last conjunct is the reduction, over all edges, of
  (0 ≤ src) and (src < 100000) as signed 32-bit comparisons.
-/
import proofs.«417709_j60155311947854_1_alg».proof.Pre_finite_inputs
import proofs.«417709_j60155311947854_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Cert.Pre_finite_inputs Idealize.ShloMosaic Idealize.ShloMosaic.ValueIdx

theorem src_in_range [Cert.Pre_finite_inputs.Facts]
    (a0 a1 : IVec S1600000 32) (a2 : FVec Ideal S100000x128 .f32) (a3 : FVec Ideal S128x128 .f32) (a4 : FVec Ideal S128 .f32)
    (a5 : FVec Ideal S128x128 .f32) (a6 a7 a8 a9 a10 : FVec Ideal S128 .f32)
    (h : Cert.Pre_finite_inputs.fn (F := Ideal) a0 a1 a2 a3 a4 a5 a6 a7 a8 a9 a10 = fun _ => 1#1) :
    ∀ e : Fin 1600000, 0 ≤ (a0 (ix1 e)).toInt ∧ (a0 (ix1 e)).toInt < 100000 := by
  intro e
  haveI : Subsingleton S_.Idx := ⟨fun a b => funext fun d => d.elim0⟩
  -- the predicate is a conjunction; its last conjunct is the "all" over the edges
  have h0 : IntOp.andi _ (Host.reduce IntOp.andi _ _ Facts.reducesTo_S1600000_S_d0 Facts.h_S_ ix0) = 1#1 := congrFun h ix0
  -- so the conjunction of the two comparisons holds at every edge
  have h1 := Host.reduce_andi_all _ _ _ _ _ (IntOp.andi_eq_one.1 h0).2 (ix1 e)
  obtain ⟨hge, hlt⟩ := IntOp.andi_eq_one.1 h1
  have hge' : (0#32 : BitVec 32).toInt ≤ (a0 (ix1 e)).toInt := IntOp.cmpi_sge.1 hge
  have hlt' : (a0 (ix1 e)).toInt < (100000#32 : BitVec 32).toInt := IntOp.cmpi_slt.1 hlt
  rw [show (0#32 : BitVec 32).toInt = 0 from by decide] at hge'
  rw [show (100000#32 : BitVec 32).toInt = 100000 from by decide] at hlt'
  exact ⟨hge', hlt'⟩

end Cert.PreDecode

end
-- ==== Proof.lean ====
/-
  The certificate of a three-layer graph convolution network: a kernel program of six tiled regions (a scaled
  matrix product, and twice a layer normalisation with clipping, scaling and a matrix product, each followed after the
  edge aggregation by a degree scaling with bias and residual) against the plain reference.

  Over the extended reals both programs compute, row by row, the same three maps of the specification; the kernel
  works through the 100000 rows in 50 tiles of 2000, which changes nothing because the maps are row-wise, and its
  matrix products in a narrower float format are the same sums. The one difference is the row gather before each edge
  aggregation: the kernel program fills a row whose source index is out of range with not-a-number where the
  reference clamps the index. The precondition keeps every source index inside [0, 100000), where the fill is never
  selected and the two aggregations are one function. The frames of the two kernel programs are the generated ones; the
  reference's frame is its generated run.
-/
import proofs.«417709_j60155311947854_1_alg».proof.Defs
import proofs.«417709_j60155311947854_1_alg».proof.Proof.Gen.Kernel
import proofs.«417709_j60155311947854_1_alg».proof.Proof.Gen.Kernel.Skeleton
import proofs.«417709_j60155311947854_1_alg».proof.Proof.Gen.Kernel.Launch
import proofs.«417709_j60155311947854_1_alg».proof.Proof.Gen.Kernel.Points
import proofs.«417709_j60155311947854_1_alg».proof.Proof.Gen.Kernel.Frame
import proofs.«417709_j60155311947854_1_alg».proof.Proof.Gen.KernelIdeal
import proofs.«417709_j60155311947854_1_alg».proof.Proof.Gen.KernelIdeal.Skeleton
import proofs.«417709_j60155311947854_1_alg».proof.Proof.Gen.KernelIdeal.Launch
import proofs.«417709_j60155311947854_1_alg».proof.Proof.Gen.KernelIdeal.Points
import proofs.«417709_j60155311947854_1_alg».proof.Proof.Gen.KernelIdeal.Frame
import proofs.«417709_j60155311947854_1_alg».proof.Proof.Gen.ReferenceIdeal
import proofs.«417709_j60155311947854_1_alg».proof.Proof.Gen.ReferenceIdeal.Run
import proofs.«417709_j60155311947854_1_alg».proof.Proof.Gen.ReferenceIdeal.Read
import proofs.«417709_j60155311947854_1_alg».proof.Proof.Gen.Pre_finite_inputs
import proofs.«417709_j60155311947854_1_alg».proof.Proof.KI.RunNamed
import proofs.«417709_j60155311947854_1_alg».proof.Proof.KI.KValue
import proofs.«417709_j60155311947854_1_alg».proof.Proof.KI.Take
import proofs.«417709_j60155311947854_1_alg».proof.Proof.Ref.Value
import proofs.«417709_j60155311947854_1_alg».proof.Proof.Glue
import proofs.«417709_j60155311947854_1_alg».proof.Proof.PreDecode
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The parameter rows of the later rounds are the same broadcast of their vectors as the first round's. -/
theorem rows_same (b : FVec Ideal (⟨1, ![128]⟩ : Shape) .f32) :
    Cert.ReferenceIdeal.Read.val_main_v91 (F := Ideal) b = Cert.ReferenceIdeal.Read.val_main_v30 (F := Ideal) b
    ∧ Cert.ReferenceIdeal.Read.val_main_v54 (F := Ideal) b = Cert.ReferenceIdeal.Read.val_main_v30 (F := Ideal) b
    ∧ Cert.ReferenceIdeal.Read.val_main_v57 (F := Ideal) b = Cert.ReferenceIdeal.Read.val_main_v30 (F := Ideal) b
    ∧ Cert.ReferenceIdeal.Read.val_main_v115 (F := Ideal) b = Cert.ReferenceIdeal.Read.val_main_v30 (F := Ideal) b
    ∧ Cert.ReferenceIdeal.Read.val_main_v118 (F := Ideal) b = Cert.ReferenceIdeal.Read.val_main_v30 (F := Ideal) b :=
  ⟨rfl, rfl, rfl, rfl, rfl⟩

theorem algebraic : Cert.algebraic_KernelIdeal_ReferenceIdeal := by
  intro m ρ m' ρ' hpre hagree
  refine ⟨fun c => Cert.KernelIdeal.Gen.W13 m ρ c (Proc.devRef .tc Cert.KernelIdeal.main_v40),
    Cert.KernelIdeal.RunNamed.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  have hsrc := Cert.PreDecode.src_in_range _ _ _ _ _ _ _ _ _ _ _ (hpre c)
  rw [Cert.ReferenceIdeal.Read.val_main_v157_eq, e0, e1, e2, e3, e4, e5, e6, e7, e8, e9, e10,
    Cert.ReferenceIdeal.RefValue.value]
  show _ = Cert.KernelIdeal.Gen.W13 m ρ c (Proc.devRef .tc Cert.KernelIdeal.main_v40)
  rw [Cert.KernelIdeal.KValue.result, Cert.KernelIdeal.Take.aggK_eq _ _ hsrc, Cert.Glue.agg_eq, Cert.Glue.col_out,
    Cert.Glue.col_in]
  simp only [Cert.Glue.row_eq, Cert.Glue.w_eq, (rows_same _).1, (rows_same _).2.1, (rows_same _).2.2.1,
    (rows_same _).2.2.2.1, (rows_same _).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
